-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024 : Shape := ⟨3, ![16, 1, 1024]⟩
abbrev S16x4096x1024 : Shape := ⟨3, ![16, 4096, 1024]⟩
abbrev S1024x256 : Shape := ⟨2, ![1024, 256]⟩
abbrev S256 : Shape := ⟨1, ![256]⟩
abbrev S1024x1024 : Shape := ⟨2, ![1024, 1024]⟩
abbrev S1024 : Shape := ⟨1, ![1024]⟩
abbrev S_ : Shape := ⟨0, ![]⟩

class Facts : Prop where
  bcast_S_S16x1x1024 : S_.BroadcastsInDim S16x1x1024 (![] : Fin 0 → Fin S16x1x1024.rank)
  reducesTo_S16x1x1024_S_d0_1_2 : S16x1x1024.ReducesTo [0, 1, 2] S_
  h_S_ : 0 < S_.numel
  bcast_S_S16x4096x1024 : S_.BroadcastsInDim S16x4096x1024 (![] : Fin 0 → Fin S16x4096x1024.rank)
  reducesTo_S16x4096x1024_S_d0_1_2 : S16x4096x1024.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S256 .f32) (main_arg5 : FVec F S1024x1024 .f32) (main_arg6 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16x1x1024 .f32) (main_arg1 : FVec F S16x4096x1024 .f32) (main_arg2 : FVec F S16x4096x1024 .f32) (main_arg3 : FVec F S1024x256 .f32) (main_arg4 : FVec F S256 .f32) (main_arg5 : FVec F S1024x1024 .f32) (main_arg6 : FVec F S1024 .f32) : IVec S_ 1 :=
  let main_v0 : FVec F S16x1x1024 .f32 := Host.absf main_arg0
  let main_cst : FVec F S_ .f32 := constant S_ .f32 0x7F800000#32
  let main_v1 : FVec F S16x1x1024 .f32 := broadcastInDim S16x1x1024 ![] bcast_S_S16x1x1024 main_cst
  let main_v2 : IVec S16x1x1024 1 := cmpf .olt main_v0 main_v1
  let main_c : IVec S_ 1 := constantI S_ 1 1#1
  let main_v3 : IVec S_ 1 := (fun x v => Host.reduce IntOp.andi x v reducesTo_S16x1x1024_S_d0_1_2 h_S_) main_v2 main_c
  let main_v4 : FVec F S16x4096x1024 .f32 := Host.absf main_arg1
  let main_cst_0 : FVec F S_ .f32 := constant S_ .f32 0x7F800000#32
  let main_v5 : FVec F S16x4096x1024 .f32 := broadcastInDim S16x4096x1024 ![] bcast_S_S16x4096x1024 main_cst_0
  let main_v6 : IVec S16x4096x1024 1 := cmpf .olt main_v4 main_v5
  let main_c_1 : IVec S_ 1 := constantI S_ 1 1#1
  let main_v7 : IVec S_ 1 := (fun x v => Host.reduce IntOp.andi x v reducesTo_S16x4096x1024_S_d0_1_2 h_S_) main_v6 main_c_1
  let main_v8 : IVec S_ 1 := andi main_v3 main_v7
  let main_v9 : FVec F S16x4096x1024 .f32 := Host.absf main_arg2
  let main_cst_2 : FVec F S_ .f32 := constant S_ .f32 0x7F800000#32
  let main_v10 : FVec F S16x4096x1024 .f32 := broadcastInDim S16x4096x1024 ![] bcast_S_S16x4096x1024 main_cst_2
  let main_v11 : IVec S16x4096x1024 1 := cmpf .olt main_v9 main_v10
  let main_c_3 : IVec S_ 1 := constantI S_ 1 1#1
  let main_v12 : IVec S_ 1 := (fun x v => Host.reduce IntOp.andi x v reducesTo_S16x4096x1024_S_d0_1_2 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_v13 main_v16
-- ==== Kernel.lean ====
abbrev S16x1x1024 : Shape := ⟨3, ![16, 1, 1024]⟩
abbrev S16x4096x1024 : Shape := ⟨3, ![16, 4096, 1024]⟩
abbrev S1024x256 : Shape := ⟨2, ![1024, 256]⟩
abbrev S256 : Shape := ⟨1, ![256]⟩
abbrev S1024x1024 : Shape := ⟨2, ![1024, 1024]⟩
abbrev S1024 : Shape := ⟨1, ![1024]⟩
abbrev S1x256 : Shape := ⟨2, ![1, 256]⟩
abbrev S1x1024 : Shape := ⟨2, ![1, 1024]⟩
abbrev S1x1x1024 : Shape := ⟨3, ![1, 1, 1024]⟩
abbrev S1x1024x1024 : Shape := ⟨3, ![1, 1024, 1024]⟩
abbrev S1x1 : Shape := ⟨2, ![1, 1]⟩
abbrev S1 : Shape := ⟨1, ![1]⟩
abbrev S16x1024 : Shape := ⟨2, ![16, 1024]⟩

abbrev nBuf : Space → Nat
  | .hbm => 13
  | .vmem => 16
  | .smem => 0
  | _ => 0

abbrev bufTy : (tb : Table) → Fin (tcTables nBuf tb) → BufTy
  | .hbm, ⟨0, _⟩ => ⟨S16x1x1024, .f32⟩
  | .hbm, ⟨1, _⟩ => ⟨S16x4096x1024, .f32⟩
  | .hbm, ⟨2, _⟩ => ⟨S16x4096x1024, .f32⟩
  | .hbm, ⟨3, _⟩ => ⟨S1024x256, .f32⟩
  | .hbm, ⟨4, _⟩ => ⟨S256, .f32⟩
  | .hbm, ⟨5, _⟩ => ⟨S1024x1024, .f32⟩
  | .hbm, ⟨6, _⟩ => ⟨S1024, .f32⟩
  | .hbm, ⟨7, _⟩ => ⟨S1024x256, .bf16⟩
  | .hbm, ⟨8, _⟩ => ⟨S1024x1024, .bf16⟩
  | .hbm, ⟨9, _⟩ => ⟨S1x256, .f32⟩
  | .hbm, ⟨10, _⟩ => ⟨S1x1024, .f32⟩
  | .hbm, ⟨11, _⟩ => ⟨S16x1x1024, .f32⟩
  | .hbm, ⟨12, _⟩ => ⟨S16x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x256, .bf16⟩
  | .local _ .vmem, ⟨7, _⟩ => ⟨S1x256, .f32⟩
  | .local _ .vmem, ⟨8, _⟩ => ⟨S1024x1024, .bf16⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1, .f32⟩
  | .local _ .vmem, ⟨13, _⟩ => ⟨S1x1, .f32⟩
  | .local _ .vmem, ⟨14, _⟩ => ⟨S1x1024, .f32⟩
  | .local _ .vmem, ⟨15, _⟩ => ⟨S1x1024, .f32⟩
  | _, _ => ⟨S16x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_23 : BitVec 32 := 0#32
  let v43 : BitVec 1 := Scalar.cmpi .ne v42 c0_i32_23
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  shapeCasts_S256_S1x256 : S256.ShapeCasts S1x256
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1x1024_S1 : S1x1024.Reduces [1] S1
  shapeCasts_S1_S1x1 : S1.ShapeCasts S1x1
  broadcasts_S1x1_S1x1024 : S1x1.Broadcasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1x1024_S1x1x1024 : S1x1024.ShapeCasts S1x1x1024
  shapeCasts_S16x1x1024_S16x1024 : S16x1x1024.ShapeCasts S16x1024
  dot_S1x1024_S1024x256_S1x256_1_0_0_1_n_n_wf : DotDims.WF S1x1024 S1024x256 S1x256 [1] [0] [0] [1] [] []
  dot_S1x256_S1024x256_S1x1024_1_1_0_0_n_n_wf : DotDims.WF S1x256 S1024x256 S1x1024 [1] [1] [0] [0] [] []
  dot_S1x1024_S1024x1024_S1x1024_1_1_0_0_n_n_wf : DotDims.WF S1x1024 S1024x1024 S1x1024 [1] [1] [0] [0] [] []
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S16x1x1024.size a
  hwx0_0 : ∀ i : grid0.Coords, EltTy.bits .f32 = 32 ∨ (Rect.block (s := S16x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x4096x1024.size a
  hwx0_1 : ∀ i : grid0.Coords, EltTy.bits .f32 = 32 ∨ (Rect.block (s := S16x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x4096x1024.size a
  hwx0_2 : ∀ i : grid0.Coords, EltTy.bits .f32 = 32 ∨ (Rect.block (s := S16x4096x1024) S1x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S16x1x1024.size a
  hwx0_7 : ∀ i : grid0.Coords, EltTy.bits .f32 = 32 ∨ (Rect.block (s := S16x1x1024) S1x1x1024.size (cc0_transform_7 i) (hinb0_7 i)).WholeWords (EltTy.packing .f32)

variable [Facts₀]

def dot_S1x1024_S1024x256_S1x256_1_0_0_1_n_n : DotDims S1x1024 S1024x256 S1x256 where
  lhsContracting := [1]
  rhsContracting := [0]
  lhsNonContracting := [0]
  rhsNonContracting := [1]
  lhsBatch := []
  rhsBatch := []
  wf := dot_S1x1024_S1024x256_S1x256_1_0_0_1_n_n_wf
def dot_S1x256_S1024x256_S1x1024_1_1_0_0_n_n : DotDims S1x256 S1024x256 S1x1024 where
  lhsContracting := [1]
  rhsContracting := [1]
  lhsNonContracting := [0]
  rhsNonContracting := [0]
  lhsBatch := []
  rhsBatch := []
  wf := dot_S1x256_S1024x256_S1x1024_1_1_0_0_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_arg0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16x1x1024 : Shape := ⟨3, ![16, 1, 1024]⟩
abbrev S16x4096x1024 : Shape := ⟨3, ![16, 4096, 1024]⟩
abbrev S1024x256 : Shape := ⟨2, ![1024, 256]⟩
abbrev S256 : Shape := ⟨1, ![256]⟩
abbrev S1024x1024 : Shape := ⟨2, ![1024, 1024]⟩
abbrev S1024 : Shape := ⟨1, ![1024]⟩
abbrev S16x1x256 : Shape := ⟨3, ![16, 1, 256]⟩
abbrev S1x1x256 : Shape := ⟨3, ![1, 1, 256]⟩
abbrev S16x4096x256 : Shape := ⟨3, ![16, 4096, 256]⟩
abbrev S1x1x1024 : Shape := ⟨3, ![1, 1, 1024]⟩
abbrev S16x1x4096 : Shape := ⟨3, ![16, 1, 4096]⟩
abbrev S_ : Shape := ⟨0, ![]⟩
abbrev S16x1 : Shape := ⟨2, ![16, 1]⟩
abbrev S16x1x1 : Shape := ⟨3, ![16, 1, 1]⟩
abbrev S16x1024 : Shape := ⟨2, ![16, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16x1x1024, .f32⟩
  | .hbm, ⟨1, _⟩ => ⟨S16x4096x1024, .f32⟩
  | .hbm, ⟨2, _⟩ => ⟨S16x4096x1024, .f32⟩
  | .hbm, ⟨3, _⟩ => ⟨S1024x256, .f32⟩
  | .hbm, ⟨4, _⟩ => ⟨S256, .f32⟩
  | .hbm, ⟨5, _⟩ => ⟨S1024x1024, .f32⟩
  | .hbm, ⟨6, _⟩ => ⟨S1024, .f32⟩
  | .hbm, ⟨7, _⟩ => ⟨S16x1x256, .f32⟩
  | .hbm, ⟨8, _⟩ => ⟨S1x1x256, .f32⟩
  | .hbm, ⟨9, _⟩ => ⟨S16x1x256, .f32⟩
  | .hbm, ⟨10, _⟩ => ⟨S16x1x256, .f32⟩
  | .hbm, ⟨11, _⟩ => ⟨S16x4096x256, .f32⟩
  | .hbm, ⟨12, _⟩ => ⟨S1x1x256, .f32⟩
  | .hbm, ⟨13, _⟩ => ⟨S16x4096x256, .f32⟩
  | .hbm, ⟨14, _⟩ => ⟨S16x4096x256, .f32⟩
  | .hbm, ⟨15, _⟩ => ⟨S16x4096x1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S16x1x4096, .f32⟩
  | .hbm, ⟨20, _⟩ => ⟨S_, .f32⟩
  | .hbm, ⟨21, _⟩ => ⟨S_, .f32⟩
  | .hbm, ⟨22, _⟩ => ⟨S16x1x4096, .f32⟩
  | .hbm, ⟨23, _⟩ => ⟨S16x1x4096, .f32⟩
  | .hbm, ⟨24, _⟩ => ⟨S_, .f32⟩
  | .hbm, ⟨25, _⟩ => ⟨S16x1, .f32⟩
  | .hbm, ⟨26, _⟩ => ⟨S_, .f32⟩
  | .hbm, ⟨27, _⟩ => ⟨S16x1, .f32⟩
  | .hbm, ⟨28, _⟩ => ⟨S16x1, .f32⟩
  | .hbm, ⟨29, _⟩ => ⟨S16x1x1, .f32⟩
  | .hbm, ⟨30, _⟩ => ⟨S16x1x4096, .f32⟩
  | .hbm, ⟨31, _⟩ => ⟨S16x1x4096, .f32⟩
  | .hbm, ⟨32, _⟩ => ⟨S16x1x4096, .f32⟩
  | .hbm, ⟨33, _⟩ => ⟨S_, .f32⟩
  | .hbm, ⟨34, _⟩ => ⟨S16x1, .f32⟩
  | .hbm, ⟨35, _⟩ => ⟨S16x1x1, .f32⟩
  | .hbm, ⟨36, _⟩ => ⟨S16x1x4096, .f32⟩
  | .hbm, ⟨37, _⟩ => ⟨S16x1x4096, .f32⟩
  | .hbm, ⟨38, _⟩ => ⟨S16x1x1024, .f32⟩
  | .hbm, ⟨39, _⟩ => ⟨S16x1024, .f32⟩
  | _, _ => ⟨S16x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x1x256_0_1_2 : S1x1x256.BroadcastsInDim S16x1x256 (![0, 1, 2] : Fin 3 → Fin S16x1x256.rank)
  bcast_S1x1x256_S16x4096x256_0_1_2 : S1x1x256.BroadcastsInDim S16x4096x256 (![0, 1, 2] : Fin 3 → Fin S16x4096x256.rank)
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  bcast_S_S16x1x4096 : S_.BroadcastsInDim S16x1x4096 (![] : Fin 0 → Fin S16x1x4096.rank)
  reducesTo_S16x1x4096_S16x1_d2 : S16x1x4096.ReducesTo [2] S16x1
  h_S_ : 0 < S_.numel
  bcast_S_S16x1 : S_.BroadcastsInDim S16x1 (![] : Fin 0 → Fin S16x1.rank)
  bcast_S16x1_S16x1x1_0_1 : S16x1.BroadcastsInDim S16x1x1 (![0, 1] : Fin 2 → Fin S16x1x1.rank)
  bcast_S16x1x1_S16x1x4096_0_1_2 : S16x1x1.BroadcastsInDim S16x1x4096 (![0, 1, 2] : Fin 3 → Fin S16x1x4096.rank)
  shapeCasts_S16x1x1024_S16x1024 : S16x1x1024.ShapeCasts S16x1024
  dot_S16x1x1024_S1024x256_S16x1x256_2_0_01_1_n_n_wf : DotDims.WF S16x1x1024 S1024x256 S16x1x256 [2] [0] [0, 1] [1] [] []
  dot_S16x4096x1024_S1024x256_S16x4096x256_2_0_01_1_n_n_wf : DotDims.WF S16x4096x1024 S1024x256 S16x4096x256 [2] [0] [0, 1] [1] [] []
  dot_S16x4096x1024_S1024x1024_S16x4096x1024_2_0_01_1_n_n_wf : DotDims.WF S16x4096x1024 S1024x1024 S16x4096x1024 [2] [0] [0, 1] [1] [] []
  dot_S16x1x256_S16x4096x256_S16x1x4096_2_2_1_1_0_0_wf : DotDims.WF S16x1x256 S16x4096x256 S16x1x4096 [2] [2] [1] [1] [0] [0]
  dot_S16x1x4096_S16x4096x1024_S16x1x1024_2_1_1_2_0_0_wf : DotDims.WF S16x1x4096 S16x4096x1024 S16x1x1024 [2] [1] [1] [2] [0] [0]

variable [Facts₀]

def dot_S16x1x1024_S1024x256_S16x1x256_2_0_01_1_n_n : DotDims S16x1x1024 S1024x256 S16x1x256 where
  lhsContracting := [2]
  rhsContracting := [0]
  lhsNonContracting := [0, 1]
  rhsNonContracting := [1]
  lhsBatch := []
  rhsBatch := []
  wf := dot_S16x1x1024_S1024x256_S16x1x256_2_0_01_1_n_n_wf
def dot_S16x4096x1024_S1024x256_S16x4096x256_2_0_01_1_n_n : DotDims S16x4096x1024 S1024x256 S16x4096x256 where
  lhsContracting := [2]
  rhsContracting := [0]
  lhsNonContracting := [0, 1]
  rhsNonContracting := [1]
  lhsBatch := []
  rhsBatch := []
  wf := dot_S16x4096x1024_S1024x256_S16x4096x256_2_0_01_1_n_n_wf
def dot_S16x4096x1024_S1024x1024_S16x4096x1024_2_0_01_1_n_n : DotDims S16x4096x1024 S1024x1024 S16x4096x1024 where
  lhsContracting := [2]
  rhsContracting := [0]
  lhsNonContracting := [0, 1]
  rhsNonContracting := [1]
  lhsBatch := []
  rhsBatch := []
  wf := dot_S16x4096x1024_S1024x1024_S16x4096x1024_2_0_01_1_n_n_wf
def dot_S16x1x256_S16x4096x256_S16x1x4096_2_2_1_1_0_0 : DotDims S16x1x256 S16x4096x256 S16x1x4096 where
  lhsContracting := [2]
  rhsContracting := [2]
  lhsNonContracting := [1]
  rhsNonContracting := [1]
  lhsBatch := [0]
  rhsBatch := [0]
  wf := dot_S16x1x256_S16x4096x256_S16x1x4096_2_2_1_1_0_0_wf
def dot_S16x1x4096_S16x4096x1024_S16x1x1024_2_1_1_2_0_0 : DotDims S16x1x4096 S16x4096x1024 S16x1x1024 where
  lhsContracting := [2]
  rhsContracting := [1]
  lhsNonContracting := [1]
  rhsNonContracting := [2]
  lhsBatch := [0]
  rhsBatch := [0]
  wf := dot_S16x1x4096_S16x4096x1024_S16x1x1024_2_1_1_2_0_0_wf

class Facts : Prop extends Facts₀ where

variable [Facts]
-- ==== Proof.Pieces.lean ====
/-
  What one grid point's body leaves in the carried scratch and in the output block, case by case, as the body's
  arithmetic applied to the point's input blocks and to what the point before left.

  At a batch's first key tile the body first stores the scaled folded query, −∞, 0 and the zero row into the four
  scratch buffers and then reads them back, so the maximum, the weight sum and the weighted value sum it leaves are
  the general tile update applied to those initial values. At the other tiles the update is applied to what the
  previous tile left. At a batch's last tile the output block is the quotient of the updated sums through the value
  projection.
-/
import proofs.«410998_j13451837571855_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S1x1x1024 .f32) (harg2 : arg2.IsWhole)
  (arg3 : Memref sig .tc .vmem S1x1024x1024 .f32) (harg3 : arg3.IsWhole)
  (arg4 : Memref sig .tc .vmem S1x1024x1024 .f32) (harg4 : arg4.IsWhole)
  (arg5 : Memref sig .tc .vmem S1024x256 .bf16) (harg5 : arg5.IsWhole)
  (arg6 : Memref sig .tc .vmem S1x256 .f32) (harg6 : arg6.IsWhole)
  (arg7 : Memref sig .tc .vmem S1024x1024 .bf16) (harg7 : arg7.IsWhole)
  (arg8 : Memref sig .tc .vmem S1x1024 .f32) (harg8 : arg8.IsWhole)
  (arg9 : Memref sig .tc .vmem S1x1x1024 .f32) (harg9 : arg9.IsWhole)
  (arg10 : Memref sig .tc .vmem S1x1 .f32) (harg10 : arg10.IsWhole)
  (arg11 : Memref sig .tc .vmem S1x1 .f32) (harg11 : arg11.IsWhole)
  (arg12 : Memref sig .tc .vmem S1x1024 .f32) (harg12 : arg12.IsWhole)
  (arg13 : Memref sig .tc .vmem S1x1024 .f32) (harg13 : arg13.IsWhole)
  (x0 : Vec F S1x1x1024 .f32) (x1 x2 : Vec F S1x1024x1024 .f32) (x3 : Vec F S1024x256 .bf16) (x4 : Vec F S1x256 .f32)
  (x5 : Vec F S1024x1024 .bf16) (x6 : Vec F S1x1024 .f32)
  (xs0 xs1 : Vec F S1x1 .f32) (xs2 xs3 : Vec F S1x1024 .f32)

/-! ## A batch's first key tile

The scratch buffers are stored into twice (the initial value, then the update), the later store covering the
earlier; the update's operands are the initial values read back. -/

/-- The scaled folded query, stored once per batch. -/
theorem first_query (hc0 : cond0_0 i) (hc1 : ¬cond0_1 i) :
    sout0_A_3 c i arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6
      = k0_pay4 x0 x3 x4 := by
  unfold sout0_A_3
  rw [View.read_writes_eq_canon _ _ _ (scover0_A_3 c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6)]
  unfold kernelRun0_A
  dsimp only
  sl_unfold_words
  rw [View.canon_unit_zero hz2]
  simp only [View.readAt_eq_ld, harg2.read_unread, harg5.read_unread, harg6.read_unread,
    View.ld_unit_zero (S := S1x1x1024) hz3, View.ld_unit_zero (S := S1024x256) hz2, View.ld_unit_zero (S := S1x256) hz2]

/-- The running maximum after the first tile: the update from −∞, over the query just stored. -/
theorem first_top (hc0 : cond0_0 i) (hc1 : ¬cond0_1 i) :
    sout0_A_0 c i arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6
      = k0_pay2 (k0_pay9 x1 (k0_pay4 x0 x3 x4) k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6)]
  unfold kernelRun0_A
  dsimp only
  sl_unfold_words
  rw [View.canon_cons_unit_zero (S := S1x1) hz2]
  simp only [View.readAt_eq_ld, harg2.read_unread, harg3.read_unread, harg5.read_unread, harg6.read_unread,
    View.ld_unit_zero (S := S1x1x1024) hz3, View.ld_unit_zero (S := S1x1024x1024) hz3,
    View.ld_unit_zero (S := S1024x256) hz2, View.ld_unit_zero (S := S1x256) hz2,
    View.readCov_unit_zero (S := S1x1024) _ hz2, View.readCov_unit_zero (S := S1x1) _ hz2]

/-- The weight sum after the first tile: the update from −∞ and 0. -/
theorem first_den (hc0 : cond0_0 i) (hc1 : ¬cond0_1 i) :
    sout0_A_1 c i arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6
      = k0_pay12 x1 (k0_pay4 x0 x3 x4) k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6)]
  unfold kernelRun0_A
  dsimp only
  sl_unfold_words
  rw [View.canon_cons_unit_zero (S := S1x1) hz2]
  simp only [View.readAt_eq_ld, harg2.read_unread, harg3.read_unread, harg5.read_unread, harg6.read_unread,
    View.ld_unit_zero (S := S1x1x1024) hz3, View.ld_unit_zero (S := S1x1024x1024) hz3,
    View.ld_unit_zero (S := S1024x256) hz2, View.ld_unit_zero (S := S1x256) hz2,
    View.readCov_unit_zero (S := S1x1024) _ hz2, View.readCov_unit_zero (S := S1x1) _ hz2]

/-- The weighted value sum after the first tile: the update from −∞ and the zero row. -/
theorem first_num (hc0 : cond0_0 i) (hc1 : ¬cond0_1 i) :
    sout0_A_2 c i arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6
      = k0_pay1 (k0_pay13 x1 x2 (k0_pay4 x0 x3 x4) k0_pay5) (k0_pay14 x1 (k0_pay4 x0 x3 x4) k0_pay5 k0_pay7) := by
  unfold sout0_A_2
  rw [View.read_writes_eq_canon _ _ _ (scover0_A_2 c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6)]
  unfold kernelRun0_A
  dsimp only
  sl_unfold_words
  rw [View.canon_cons_unit_zero (S := S1x1024) hz2]
  simp only [View.readAt_eq_ld, harg2.read_unread, harg3.read_unread, harg4.read_unread, harg5.read_unread,
    harg6.read_unread, View.ld_unit_zero (S := S1x1x1024) hz3, View.ld_unit_zero (S := S1x1024x1024) hz3,
    View.ld_unit_zero (S := S1024x256) hz2, View.ld_unit_zero (S := S1x256) hz2,
    View.readCov_unit_zero (S := S1x1024) _ hz2, View.readCov_unit_zero (S := S1x1) _ hz2]

/-! ## A middle key tile

One store per carried buffer; the operands are what the tile before left (`xs0` the maximum, `xs1` the weight
sum, `xs2` the weighted value sum, `xs3` the query). -/

theorem mid_top (hc0 : ¬cond0_0 i) (hc1 : ¬cond0_1 i) :
    sout0_B_0 c i arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 xs0 xs1 xs2 xs3
      = k0_pay2 (k0_pay9 x1 xs3 xs0) := by
  unfold sout0_B_0
  rw [View.read_writes_eq_canon _ _ _ (scover0_B_0 c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 xs0 xs1 xs2 xs3)]
  unfold kernelRun0_B
  dsimp only
  sl_unfold_words
  rw [View.canon_unit_zero hz2]
  simp only [View.readAt_eq_ld, harg3.read_unread, harg10.read_unread, harg13.read_unread,
    View.ld_unit_zero (S := S1x1024x1024) hz3, View.ld_unit_zero (S := S1x1024) hz2, View.ld_unit_zero (S := S1x1) hz2]

theorem mid_den (hc0 : ¬cond0_0 i) (hc1 : ¬cond0_1 i) :
    sout0_B_1 c i arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 xs0 xs1 xs2 xs3
      = k0_pay12 x1 xs3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 xs0 xs1 xs2 xs3)]
  unfold kernelRun0_B
  dsimp only
  sl_unfold_words
  rw [View.canon_unit_zero hz2]
  simp only [View.readAt_eq_ld, harg3.read_unread, harg10.read_unread, harg11.read_unread, harg13.read_unread,
    View.ld_unit_zero (S := S1x1024x1024) hz3, View.ld_unit_zero (S := S1x1024) hz2, View.ld_unit_zero (S := S1x1) hz2]

theorem mid_num (hc0 : ¬cond0_0 i) (hc1 : ¬cond0_1 i) :
    sout0_B_2 c i arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 xs0 xs1 xs2 xs3
      = k0_pay1 (k0_pay13 x1 x2 xs3 xs0) (k0_pay14 x1 xs3 xs0 xs2) := by
  unfold sout0_B_2
  rw [View.read_writes_eq_canon _ _ _ (scover0_B_2 c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 xs0 xs1 xs2 xs3)]
  unfold kernelRun0_B
  dsimp only
  sl_unfold_words
  rw [View.canon_unit_zero hz2]
  simp only [View.readAt_eq_ld, harg3.read_unread, harg4.read_unread, harg10.read_unread, harg12.read_unread,
    harg13.read_unread, View.ld_unit_zero (S := S1x1024x1024) hz3, View.ld_unit_zero (S := S1x1024) hz2,
    View.ld_unit_zero (S := S1x1) hz2]

/-! ## A batch's last key tile

The same update, and then the output block from the sums just stored. -/

theorem last_top (hc0 : ¬cond0_0 i) (hc1 : cond0_1 i) :
    sout0_C_0 c i arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 xs0 xs1 xs2 xs3
      = k0_pay2 (k0_pay9 x1 xs3 xs0) := by
  unfold sout0_C_0
  rw [View.read_writes_eq_canon _ _ _ (scover0_C_0 c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 xs0 xs1 xs2 xs3)]
  unfold kernelRun0_C
  dsimp only
  sl_unfold_words
  rw [View.canon_unit_zero hz2]
  simp only [View.readAt_eq_ld, harg3.read_unread, harg10.read_unread, harg13.read_unread,
    View.ld_unit_zero (S := S1x1024x1024) hz3, View.ld_unit_zero (S := S1x1024) hz2, View.ld_unit_zero (S := S1x1) hz2]

theorem last_den (hc0 : ¬cond0_0 i) (hc1 : cond0_1 i) :
    sout0_C_1 c i arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 xs0 xs1 xs2 xs3
      = k0_pay12 x1 xs3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 xs0 xs1 xs2 xs3)]
  unfold kernelRun0_C
  dsimp only
  sl_unfold_words
  rw [View.canon_unit_zero hz2]
  simp only [View.readAt_eq_ld, harg3.read_unread, harg10.read_unread, harg11.read_unread, harg13.read_unread,
    View.ld_unit_zero (S := S1x1024x1024) hz3, View.ld_unit_zero (S := S1x1024) hz2, View.ld_unit_zero (S := S1x1) hz2]

theorem last_num (hc0 : ¬cond0_0 i) (hc1 : cond0_1 i) :
    sout0_C_2 c i arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 xs0 xs1 xs2 xs3
      = k0_pay1 (k0_pay13 x1 x2 xs3 xs0) (k0_pay14 x1 xs3 xs0 xs2) := by
  unfold sout0_C_2
  rw [View.read_writes_eq_canon _ _ _ (scover0_C_2 c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 xs0 xs1 xs2 xs3)]
  unfold kernelRun0_C
  dsimp only
  sl_unfold_words
  rw [View.canon_unit_zero hz2]
  simp only [View.readAt_eq_ld, harg3.read_unread, harg4.read_unread, harg10.read_unread, harg12.read_unread,
    harg13.read_unread, View.ld_unit_zero (S := S1x1024x1024) hz3, View.ld_unit_zero (S := S1x1024) hz2,
    View.ld_unit_zero (S := S1x1) hz2]

/-- The output block: the quotient of the sums just stored (read back), through the value projection, plus its bias. -/
theorem last_out (hc0 : ¬cond0_0 i) (hc1 : cond0_1 i) :
    out0_C_7 c i arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 xs0 xs1 xs2 xs3
      = k0_pay3 (k0_pay1 (k0_pay13 x1 x2 xs3 xs0) (k0_pay14 x1 xs3 xs0 xs2)) (k0_pay12 x1 xs3 xs0 xs1) x5 x6 := by
  unfold out0_C_7
  rw [View.read_writes_eq_canon _ _ _ (cover0_C_7 c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 xs0 xs1 xs2 xs3)]
  unfold kernelRun0_C
  dsimp only
  sl_unfold_words
  rw [View.canon_unit_zero hz3]
  simp only [View.readAt_eq_ld, harg3.read_unread, harg4.read_unread, harg7.read_unread, harg8.read_unread,
    harg10.read_unread, harg11.read_unread, harg12.read_unread, harg13.read_unread,
    View.ld_unit_zero (S := S1x1024x1024) hz3, View.ld_unit_zero (S := S1024x1024) hz2,
    View.ld_unit_zero (S := S1x1024) hz2, View.ld_unit_zero (S := S1x1) hz2,
    View.readCov_unit_zero (S := S1x1024) _ hz2, View.readCov_unit_zero (S := S1x1) _ hz2]

end Cert.KernelIdeal.Pieces

end
-- ==== Proof.LibStreamSoftmax.lean ====
/-
  The scalar laws behind streaming softmax, on the extended reals with real data. A row's state after
  some key tiles is (μ, exp(−μ)·Z, exp(−μ)·N) for SOME real μ (the running maximum; its being a maximum is
  never used), Z the sum of exp(score) and N the weighted sum so far. A new tile with maximum-so-far μ'
  rescales the old sums by exp(μ − μ') and adds exp(score − μ'): both become exp(−μ')·(old + tile's).
  At the first tile the old maximum is −∞, the rescaling factor exp(−∞ − μ') is 0 and the old sums are 0.
  The final quotient cancels exp(−μ). The two-pass form Σ_k (exp(s_k − M)/Σ_j exp(s_j − M))·v_k cancels
  exp(−M) the same way.
-/
import Idealize.ShloMosaic.PureOps.Ideal
import Mathlib.Analysis.SpecialFunctions.Exp

noncomputable section

namespace Cert.Attn

open Idealize.ShloMosaic

variable {ι : Type} [Fintype ι]

/-- The coercion of a finite real sum is the sum of the coercions. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The f32 word of −∞ denotes ⊥. -/
theorem ofBits_neg_inf : Ideal.ofBits .f32 0xFF800000#32 = (⊥ : EReal) := by
  simp [Ideal.ofBits, Ideal.ieee]

/-- A dot product of real data is real. -/
theorem dot_coe (a b : ι → ℝ) : ∑ d, (a d : EReal) * (b d : EReal) = ((∑ d, a d * b d : ℝ) : EReal) := by
  rw [coe_sum]
  exact Finset.sum_congr rfl (fun d _ => (EReal.coe_mul _ _).symm)

/-- The maximum of finitely many (at least one) reals, folded from −∞, is real. -/
theorem foldmax_real [Nonempty ι] (σ : ι → ℝ) :
    ∃ μ : ℝ, (Finset.univ : Finset ι).fold max (⊥ : EReal) (fun k => (σ k : EReal)) = (μ : EReal) := by
  classical
  have key : ∀ s : Finset ι,
      (s = ∅ ∧ s.fold max (⊥ : EReal) (fun k => (σ k : EReal)) = ⊥)
        ∨ ∃ μ : ℝ, s.fold max (⊥ : EReal) (fun k => (σ k : EReal)) = (μ : EReal) := by
    intro s
    refine Finset.induction_on s ?_ ?_
    · exact Or.inl ⟨rfl, Finset.fold_empty⟩
    · intro a s ha ih
      refine Or.inr ?_
      rw [Finset.fold_insert ha]
      rcases ih with ⟨_, h⟩ | ⟨μ, h⟩
      · exact ⟨σ a, by rw [h, max_bot_right]⟩
      · exact ⟨max (σ a) μ, by rw [h]; exact (EReal.coe_strictMono.monotone.map_max).symm⟩
  rcases key Finset.univ with ⟨h, _⟩ | h
  · exact absurd h (Finset.univ_nonempty.ne_empty)
  · exact h

/-- … and so is its maximum with a real, or with −∞. -/
theorem max_real [Nonempty ι] (μ : ℝ) (σ : ι → ℝ) :
    ∃ μ' : ℝ, max (μ : EReal) ((Finset.univ : Finset ι).fold max (⊥ : EReal) (fun k => (σ k : EReal))) = (μ' : EReal) := by
  obtain ⟨m, h⟩ := foldmax_real σ
  exact ⟨max μ m, by rw [h]; exact (EReal.coe_strictMono.monotone.map_max).symm⟩

theorem max_real_first [Nonempty ι] (σ : ι → ℝ) :
    ∃ μ' : ℝ, max (⊥ : EReal) ((Finset.univ : Finset ι).fold max (⊥ : EReal) (fun k => (σ k : EReal))) = (μ' : EReal) := by
  obtain ⟨m, h⟩ := foldmax_real σ
  exact ⟨m, by rw [h, max_bot_left]⟩

/-- First tile: the factor exp(−∞ − μ') is 0, and it multiplies 0. -/
theorem rescale_first (μ' : ℝ) :
    Ideal.exp ((⊥ : EReal) - (μ' : EReal)) * (0 : EReal) = ((Real.exp (-μ') * 0 : ℝ) : EReal) := by
  rw [mul_zero, mul_zero, EReal.coe_zero]

/-- Later tiles: exp(μ − μ')·(exp(−μ)·Z) = exp(−μ')·Z. -/
theorem rescale (μ μ' Z : ℝ) :
    Ideal.exp ((μ : EReal) - (μ' : EReal)) * ((Real.exp (-μ) * Z : ℝ) : EReal) = ((Real.exp (-μ') * Z : ℝ) : EReal) := by
  rw [← EReal.coe_sub, Ideal.exp_coe, ← EReal.coe_mul, ← mul_assoc, ← Real.exp_add]
  congr 3
  ring

/-- A tile's contribution to the weight sum. -/
theorem tile_den (μ' : ℝ) (σ : ι → ℝ) :
    ∑ c, Ideal.exp ((σ c : EReal) - (μ' : EReal)) = ((Real.exp (-μ') * ∑ c, Real.exp (σ c) : ℝ) : EReal) := by
  rw [Finset.mul_sum, coe_sum]
  refine Finset.sum_congr rfl (fun c _ => ?_)
  rw [← EReal.coe_sub, Ideal.exp_coe, ← Real.exp_add]
  congr 2
  ring

/-- A tile's contribution to the weighted sum of a column. -/
theorem tile_num (μ' : ℝ) (σ v : ι → ℝ) :
    ∑ c, Ideal.exp ((σ c : EReal) - (μ' : EReal)) * (v c : EReal)
      = ((Real.exp (-μ') * ∑ c, Real.exp (σ c) * v c : ℝ) : EReal) := by
  rw [Finset.mul_sum, coe_sum]
  refine Finset.sum_congr rfl (fun c _ => ?_)
  rw [← EReal.coe_sub, Ideal.exp_coe, ← EReal.coe_mul, ← mul_assoc, ← Real.exp_add]
  congr 3
  ring

/-- Rescaled old sum plus the tile's. -/
theorem carry_add (μ' Z T : ℝ) :
    ((Real.exp (-μ') * Z : ℝ) : EReal) + ((Real.exp (-μ') * T : ℝ) : EReal) = ((Real.exp (-μ') * (Z + T) : ℝ) : EReal) := by
  rw [← EReal.coe_add, mul_add]

/-- The final quotient cancels exp(−μ). -/
theorem final_div (μ N Z : ℝ) (hZ : 0 < Z) :
    Ideal.div ((Real.exp (-μ) * N : ℝ) : EReal) ((Real.exp (-μ) * Z : ℝ) : EReal) = ((N / Z : ℝ) : EReal) := by
  have he : Real.exp (-μ) ≠ 0 := (Real.exp_pos _).ne'
  have hne : Real.exp (-μ) * Z ≠ 0 := mul_ne_zero he hZ.ne'
  rw [Ideal.div_coe hne, ← EReal.coe_mul]
  congr 1
  field_simp

/-- The two-pass form of a row: normalise the weights exp(s_k − M) by their sum (added to the initial 0),
    then take the weighted sum of a column. -/
theorem ref_row (M : ℝ) (σ v : ι → ℝ) (hpos : 0 < ∑ j, Real.exp (σ j)) :
    ∑ k, Ideal.div (Ideal.exp ((σ k : EReal) - (M : EReal))) ((0 : EReal) + ∑ j, Ideal.exp ((σ j : EReal) - (M : EReal))) * (v k : EReal)
      = (((∑ k, Real.exp (σ k) * v k) / (∑ k, Real.exp (σ k)) : ℝ) : EReal) := by
  have he : Real.exp (-M) ≠ 0 := (Real.exp_pos _).ne'
  have hne : Real.exp (-M) * ∑ j, Real.exp (σ j) ≠ 0 := mul_ne_zero he hpos.ne'
  rw [zero_add, tile_den, Finset.sum_div, coe_sum]
  refine Finset.sum_congr rfl (fun k _ => ?_)
  rw [Ideal.div_coe hne, ← EReal.coe_sub, Ideal.exp_coe, ← EReal.coe_mul, ← EReal.coe_mul, sub_eq_add_neg,
    Real.exp_add]
  congr 1
  field_simp

end Cert.Attn

end
-- ==== Proof.PayIdx.lean ====
/-
  The kernel body's arithmetic read one element at a time, over the extended reals. Each pure value the body stores
  or carries (the payloads k0_pay1 … k0_pay14) is read at a coordinate: a contraction as the sum, over its one
  contracted coordinate, of the operands' products; the lane maximum as the fold of max from −∞; the lane sum as
  the sum over the lanes; a 1 × 1 value broadcast along the lanes as its one entry; a change of float format as the
  identity; a reshape that drops or adds a unit axis as the same entry.
-/
import proofs.«410998_j13451837571855_3_alg».proof.Proof.Gen.KernelIdeal.Skeleton
import proofs.«410998_j13451837571855_3_alg».proof.Proof.LibStreamSoftmax
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx

/-! ## The four contractions' operand indices, axis by axis -/

/-- Left operand, axis 0 (kept): the result's row. -/
theorem lhs_qw_0 (i : S1x256.Idx) (q : dot_S1x1024_S1024x256_S1x256_1_0_0_1_n_n.contr.Idx) :
    (dot_S1x1024_S1024x256_S1x256_1_0_0_1_n_n.lhsIdx i q 0).val = (i 0).val := by
  unfold DotDims.lhsIdx
  rw [dif_neg (show ¬(0 : Fin S1x1024.rank) ∈ dot_S1x1024_S1024x256_S1x256_1_0_0_1_n_n.lhsBatch by decide), dif_pos (show (0 : Fin S1x1024.rank) ∈ dot_S1x1024_S1024x256_S1x256_1_0_0_1_n_n.lhsNonContracting by decide)]
  rfl
/-- Left operand, axis 1 (contracted): the contraction coordinate. -/
theorem lhs_qw_1 (i : S1x256.Idx) (q : dot_S1x1024_S1024x256_S1x256_1_0_0_1_n_n.contr.Idx) :
    (dot_S1x1024_S1024x256_S1x256_1_0_0_1_n_n.lhsIdx i q 1).val = (q ⟨0, by decide⟩).val :=
  dot_S1x1024_S1024x256_S1x256_1_0_0_1_n_n.lhsIdx_val_of_single rfl i q
/-- Right operand, axis 0 (contracted): the contraction coordinate. -/
theorem rhs_qw_0 (i : S1x256.Idx) (q : dot_S1x1024_S1024x256_S1x256_1_0_0_1_n_n.contr.Idx) :
    (dot_S1x1024_S1024x256_S1x256_1_0_0_1_n_n.rhsIdx i q 0).val = (q ⟨0, by decide⟩).val :=
  dot_S1x1024_S1024x256_S1x256_1_0_0_1_n_n.rhsIdx_val_of_single rfl i q
/-- Right operand, axis 1 (kept): the result's column. -/
theorem rhs_qw_1 (i : S1x256.Idx) (q : dot_S1x1024_S1024x256_S1x256_1_0_0_1_n_n.contr.Idx) :
    (dot_S1x1024_S1024x256_S1x256_1_0_0_1_n_n.rhsIdx i q 1).val = (i 1).val := by
  unfold DotDims.rhsIdx
  rw [dif_neg (show ¬(1 : Fin S1024x256.rank) ∈ dot_S1x1024_S1024x256_S1x256_1_0_0_1_n_n.rhsBatch by decide), dif_pos (show (1 : Fin S1024x256.rank) ∈ dot_S1x1024_S1024x256_S1x256_1_0_0_1_n_n.rhsNonContracting by decide)]
  rfl

/-- Left operand, axis 0 (kept): the result's row. -/
theorem lhs_wq_0 (i : S1x1024.Idx) (q : dot_S1x256_S1024x256_S1x1024_1_1_0_0_n_n.contr.Idx) :
    (dot_S1x256_S1024x256_S1x1024_1_1_0_0_n_n.lhsIdx i q 0).val = (i 0).val := by
  unfold DotDims.lhsIdx
  rw [dif_neg (show ¬(0 : Fin S1x256.rank) ∈ dot_S1x256_S1024x256_S1x1024_1_1_0_0_n_n.lhsBatch by decide), dif_pos (show (0 : Fin S1x256.rank) ∈ dot_S1x256_S1024x256_S1x1024_1_1_0_0_n_n.lhsNonContracting by decide)]
  rfl
/-- Left operand, axis 1 (contracted): the contraction coordinate. -/
theorem lhs_wq_1 (i : S1x1024.Idx) (q : dot_S1x256_S1024x256_S1x1024_1_1_0_0_n_n.contr.Idx) :
    (dot_S1x256_S1024x256_S1x1024_1_1_0_0_n_n.lhsIdx i q 1).val = (q ⟨0, by decide⟩).val :=
  dot_S1x256_S1024x256_S1x1024_1_1_0_0_n_n.lhsIdx_val_of_single rfl i q
/-- Right operand, axis 1 (contracted): the contraction coordinate. -/
theorem rhs_wq_1 (i : S1x1024.Idx) (q : dot_S1x256_S1024x256_S1x1024_1_1_0_0_n_n.contr.Idx) :
    (dot_S1x256_S1024x256_S1x1024_1_1_0_0_n_n.rhsIdx i q 1).val = (q ⟨0, by decide⟩).val :=
  dot_S1x256_S1024x256_S1x1024_1_1_0_0_n_n.rhsIdx_val_of_single rfl i q
/-- Right operand, axis 0 (kept): the result's column. -/
theorem rhs_wq_0 (i : S1x1024.Idx) (q : dot_S1x256_S1024x256_S1x1024_1_1_0_0_n_n.contr.Idx) :
    (dot_S1x256_S1024x256_S1x1024_1_1_0_0_n_n.rhsIdx i q 0).val = (i 1).val := by
  unfold DotDims.rhsIdx
  rw [dif_neg (show ¬(0 : Fin S1024x256.rank) ∈ dot_S1x256_S1024x256_S1x1024_1_1_0_0_n_n.rhsBatch by decide), dif_pos (show (0 : Fin S1024x256.rank) ∈ dot_S1x256_S1024x256_S1x1024_1_1_0_0_n_n.rhsNonContracting by decide)]
  rfl

/-- Left operand, axis 0 (kept): the result's row. -/
theorem lhs_qk_0 (i : S1x1024.Idx) (q : dot_S1x1024_S1024x1024_S1x1024_1_1_0_0_n_n.contr.Idx) :
    (dot_S1x1024_S1024x1024_S1x1024_1_1_0_0_n_n.lhsIdx i q 0).val = (i 0).val := by
  unfold DotDims.lhsIdx
  rw [dif_neg (show ¬(0 : Fin S1x1024.rank) ∈ dot_S1x1024_S1024x1024_S1x1024_1_1_0_0_n_n.lhsBatch by decide), dif_pos (show (0 : Fin S1x1024.rank) ∈ dot_S1x1024_S1024x1024_S1x1024_1_1_0_0_n_n.lhsNonContracting by decide)]
  rfl
/-- Left operand, axis 1 (contracted): the contraction coordinate. -/
theorem lhs_qk_1 (i : S1x1024.Idx) (q : dot_S1x1024_S1024x1024_S1x1024_1_1_0_0_n_n.contr.Idx) :
    (dot_S1x1024_S1024x1024_S1x1024_1_1_0_0_n_n.lhsIdx i q 1).val = (q ⟨0, by decide⟩).val :=
  dot_S1x1024_S1024x1024_S1x1024_1_1_0_0_n_n.lhsIdx_val_of_single rfl i q
/-- Right operand, axis 1 (contracted): the contraction coordinate. -/
theorem rhs_qk_1 (i : S1x1024.Idx) (q : dot_S1x1024_S1024x1024_S1x1024_1_1_0_0_n_n.contr.Idx) :
    (dot_S1x1024_S1024x1024_S1x1024_1_1_0_0_n_n.rhsIdx i q 1).val = (q ⟨0, by decide⟩).val :=
  dot_S1x1024_S1024x1024_S1x1024_1_1_0_0_n_n.rhsIdx_val_of_single rfl i q
/-- Right operand, axis 0 (kept): the result's column. -/
theorem rhs_qk_0 (i : S1x1024.Idx) (q : dot_S1x1024_S1024x1024_S1x1024_1_1_0_0_n_n.contr.Idx) :
    (dot_S1x1024_S1024x1024_S1x1024_1_1_0_0_n_n.rhsIdx i q 0).val = (i 1).val := by
  unfold DotDims.rhsIdx
  rw [dif_neg (show ¬(0 : Fin S1024x1024.rank) ∈ dot_S1x1024_S1024x1024_S1x1024_1_1_0_0_n_n.rhsBatch by decide), dif_pos (show (0 : Fin S1024x1024.rank) ∈ dot_S1x1024_S1024x1024_S1x1024_1_1_0_0_n_n.rhsNonContracting by decide)]
  rfl

/-- Left operand, axis 0 (kept): the result's row. -/
theorem lhs_pv_0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
/-- Left operand, axis 1 (contracted): the contraction coordinate. -/
theorem lhs_pv_1 (i : S1x1024.Idx) (q : dot_S1x1024_S1024x1024_S1x1024_1_0_0_1_n_n.contr.Idx) :
    (dot_S1x1024_S1024x1024_S1x1024_1_0_0_1_n_n.lhsIdx i q 1).val = (q ⟨0, by decide⟩).val :=
  dot_S1x1024_S1024x1024_S1x1024_1_0_0_1_n_n.lhsIdx_val_of_single rfl i q
/-- Right operand, axis 0 (contracted): the contraction coordinate. -/
theorem rhs_pv_0 (i : S1x1024.Idx) (q : dot_S1x1024_S1024x1024_S1x1024_1_0_0_1_n_n.contr.Idx) :
    (dot_S1x1024_S1024x1024_S1x1024_1_0_0_1_n_n.rhsIdx i q 0).val = (q ⟨0, by decide⟩).val :=
  dot_S1x1024_S1024x1024_S1x1024_1_0_0_1_n_n.rhsIdx_val_of_single rfl i q
/-- Right operand, axis 1 (kept): the result's column. -/
theorem rhs_pv_1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-! ## Each contraction into the zero accumulator, read at (0, c) -/

/-- A row against the columns of a 1024 × 256 matrix: entry c is the sum over k of row(k) · M(k, c). -/
theorem matmul_qw_apply {φ₁ φ₂ : FTy} (lhs : FVec Ideal S1x1024 φ₁) (rhs : FVec Ideal S1024x256 φ₂) (c : Fin 256) :
    FloatOps.matmul dot_S1x1024_S1024x256_S1x256_1_0_0_1_n_n none lhs rhs (constant S1x256 .f32 0x00000000#32) (ix2 0 c)
      = ∑ k : Fin 1024, lhs (ix2 0 k) * rhs (ix2 k c) := by
  rw [Ideal.matmul_constant_zero_apply, ← Equiv.sum_comp (contrEquiv1 dot_S1x1024_S1024x256_S1x256_1_0_0_1_n_n 1024 rfl rfl).symm]
  refine Finset.sum_congr rfl fun k _ => ?_
  have hk := contrEquiv1_symm_val dot_S1x1024_S1024x256_S1x256_1_0_0_1_n_n 1024 rfl rfl k
  have el : dot_S1x1024_S1024x256_S1x256_1_0_0_1_n_n.lhsIdx (ix2 0 c) ((contrEquiv1 dot_S1x1024_S1024x256_S1x256_1_0_0_1_n_n 1024 rfl rfl).symm k) = ix2 0 k := funext fun a => Fin.ext (by
    match a with
    | ⟨0, _⟩ => exact lhs_qw_0 _ _
    | ⟨1, _⟩ => exact (lhs_qw_1 _ _).trans hk)
  have er : dot_S1x1024_S1024x256_S1x256_1_0_0_1_n_n.rhsIdx (ix2 0 c) ((contrEquiv1 dot_S1x1024_S1024x256_S1x256_1_0_0_1_n_n 1024 rfl rfl).symm k) = ix2 k c := funext fun a => Fin.ext (by
    match a with
    | ⟨0, _⟩ => exact (rhs_qw_0 _ _).trans hk
    | ⟨1, _⟩ => exact rhs_qw_1 _ _)
  rw [el, er]

/-- A row against the rows of a 1024 × 256 matrix: entry c is the sum over k of row(k) · M(c, k). -/
theorem matmul_wq_apply {φ₁ φ₂ : FTy} (lhs : FVec Ideal S1x256 φ₁) (rhs : FVec Ideal S1024x256 φ₂) (c : Fin 1024) :
    FloatOps.matmul dot_S1x256_S1024x256_S1x1024_1_1_0_0_n_n none lhs rhs (constant S1x1024 .f32 0x00000000#32) (ix2 0 c)
      = ∑ k : Fin 256, lhs (ix2 0 k) * rhs (ix2 c k) := by
  rw [Ideal.matmul_constant_zero_apply, ← Equiv.sum_comp (contrEquiv1 dot_S1x256_S1024x256_S1x1024_1_1_0_0_n_n 256 rfl rfl).symm]
  refine Finset.sum_congr rfl fun k _ => ?_
  have hk := contrEquiv1_symm_val dot_S1x256_S1024x256_S1x1024_1_1_0_0_n_n 256 rfl rfl k
  have el : dot_S1x256_S1024x256_S1x1024_1_1_0_0_n_n.lhsIdx (ix2 0 c) ((contrEquiv1 dot_S1x256_S1024x256_S1x1024_1_1_0_0_n_n 256 rfl rfl).symm k) = ix2 0 k := funext fun a => Fin.ext (by
    match a with
    | ⟨0, _⟩ => exact lhs_wq_0 _ _
    | ⟨1, _⟩ => exact (lhs_wq_1 _ _).trans hk)
  have er : dot_S1x256_S1024x256_S1x1024_1_1_0_0_n_n.rhsIdx (ix2 0 c) ((contrEquiv1 dot_S1x256_S1024x256_S1x1024_1_1_0_0_n_n 256 rfl rfl).symm k) = ix2 c k := funext fun a => Fin.ext (by
    match a with
    | ⟨0, _⟩ => exact rhs_wq_0 _ _
    | ⟨1, _⟩ => exact (rhs_wq_1 _ _).trans hk)
  rw [el, er]

/-- A row against the rows of a 1024 × 1024 matrix: entry c is the sum over k of row(k) · M(c, k). -/
theorem matmul_qk_apply {φ₁ φ₂ : FTy} (lhs : FVec Ideal S1x1024 φ₁) (rhs : FVec Ideal S1024x1024 φ₂) (c : Fin 1024) :
    FloatOps.matmul dot_S1x1024_S1024x1024_S1x1024_1_1_0_0_n_n none lhs rhs (constant S1x1024 .f32 0x00000000#32) (ix2 0 c)
      = ∑ k : Fin 1024, lhs (ix2 0 k) * rhs (ix2 c k) := by
  rw [Ideal.matmul_constant_zero_apply, ← Equiv.sum_comp (contrEquiv1 dot_S1x1024_S1024x1024_S1x1024_1_1_0_0_n_n 1024 rfl rfl).symm]
  refine Finset.sum_congr rfl fun k _ => ?_
  have hk := contrEquiv1_symm_val dot_S1x1024_S1024x1024_S1x1024_1_1_0_0_n_n 1024 rfl rfl k
  have el : dot_S1x1024_S1024x1024_S1x1024_1_1_0_0_n_n.lhsIdx (ix2 0 c) ((contrEquiv1 dot_S1x1024_S1024x1024_S1x1024_1_1_0_0_n_n 1024 rfl rfl).symm k) = ix2 0 k := funext fun a => Fin.ext (by
    match a with
    | ⟨0, _⟩ => exact lhs_qk_0 _ _
    | ⟨1, _⟩ => exact (lhs_qk_1 _ _).trans hk)
  have er : dot_S1x1024_S1024x1024_S1x1024_1_1_0_0_n_n.rhsIdx (ix2 0 c) ((contrEquiv1 dot_S1x1024_S1024x1024_S1x1024_1_1_0_0_n_n 1024 rfl rfl).symm k) = ix2 c k := funext fun a => Fin.ext (by
    match a with
    | ⟨0, _⟩ => exact rhs_qk_0 _ _
    | ⟨1, _⟩ => exact (rhs_qk_1 _ _).trans hk)
  rw [el, er]

/-- A row against the columns of a 1024 × 1024 matrix: entry c is the sum over k of row(k) · M(k, c). -/
theorem matmul_pv_apply {φ₁ φ₂ : FTy} (lhs : FVec Ideal S1x1024 φ₁) (rhs : FVec Ideal S1024x1024 φ₂) (c : Fin 1024) :
    FloatOps.matmul dot_S1x1024_S1024x1024_S1x1024_1_0_0_1_n_n none lhs rhs (constant S1x1024 .f32 0x00000000#32) (ix2 0 c)
      = ∑ k : Fin 1024, lhs (ix2 0 k) * rhs (ix2 k c) := by
  rw [Ideal.matmul_constant_zero_apply, ← Equiv.sum_comp (contrEquiv1 dot_S1x1024_S1024x1024_S1x1024_1_0_0_1_n_n 1024 rfl rfl).symm]
  refine Finset.sum_congr rfl fun k _ => ?_
  have hk := contrEquiv1_symm_val dot_S1x1024_S1024x1024_S1x1024_1_0_0_1_n_n 1024 rfl rfl k
  have el : dot_S1x1024_S1024x1024_S1x1024_1_0_0_1_n_n.lhsIdx (ix2 0 c) ((contrEquiv1 dot_S1x1024_S1024x1024_S1x1024_1_0_0_1_n_n 1024 rfl rfl).symm k) = ix2 0 k := funext fun a => Fin.ext (by
    match a with
    | ⟨0, _⟩ => exact lhs_pv_0 _ _
    | ⟨1, _⟩ => exact (lhs_pv_1 _ _).trans hk)
  have er : dot_S1x1024_S1024x1024_S1x1024_1_0_0_1_n_n.rhsIdx (ix2 0 c) ((contrEquiv1 dot_S1x1024_S1024x1024_S1x1024_1_0_0_1_n_n 1024 rfl rfl).symm k) = ix2 k c := funext fun a => Fin.ext (by
    match a with
    | ⟨0, _⟩ => exact (rhs_pv_0 _ _).trans hk
    | ⟨1, _⟩ => exact rhs_pv_1 _ _)
  rw [el, er]

/-! ## Two layout readings at these shapes -/

/-- The reduced index with the lane coordinate put back is (0, r). -/
theorem lift_row (h : S1x1024.Reduces [1] S1) (r : Fin 1024) : h.lift (ix1 0) r = ix2 0 r :=
  funext fun a => Fin.ext (match a with | ⟨0, _⟩ => rfl | ⟨1, _⟩ => rfl)

/-- A 1 × 1 value broadcast along 1024 lanes reads its one entry at every lane. -/
theorem broadcastTo_11_apply {α : Type} (x : S1x1.Idx → α) (h : S1x1.Broadcasts S1x1024) (e : Fin 1024) :
    broadcastTo S1x1024 x h (ix2 0 e) = x (ix2 0 0) :=
  broadcastTo_apply x h (ix2 0 e) (ix2 0 0) fun a => match a with
    | ⟨0, _⟩ => rfl
    | ⟨1, _⟩ => rfl

/-! ## The payloads at an index -/

/-- The tile's scores: the folded query against each raw key row. -/
theorem pay8_apply (v3 : Vec Ideal S1x1024x1024 .f32) (v9 : Vec Ideal S1x1024 .f32) (r : Fin 1024) :
    k0_pay8 (F := Ideal) v3 v9 (ix2 0 r) = ∑ d : Fin 1024, v9 (ix2 0 d) * v3 (ix3 0 r d) := by
  unfold k0_pay8
  refine (matmul_qk_apply (φ₁ := .bf16) (φ₂ := .bf16) _ _ r).trans ?_
  refine Finset.sum_congr rfl fun d _ => ?_
  rw [truncf_apply, truncf_apply, shapeCast_1ab_ab_apply]

/-- The new running maximum: the old one against the tile's largest score. -/
theorem pay9_apply (v3 : Vec Ideal S1x1024x1024 .f32) (v9 : Vec Ideal S1x1024 .f32) (v12 : Vec Ideal S1x1 .f32) :
    k0_pay9 (F := Ideal) v3 v9 v12 (ix2 0 0)
      = max (v12 (ix2 0 0)) ((Finset.univ : Finset (Fin 1024)).fold max ⊥ (fun r => k0_pay8 (F := Ideal) v3 v9 (ix2 0 r))) := by
  unfold k0_pay9
  rw [maximumf_apply, shapeCast_a_1a_apply]
  refine congrArg (max (v12 (ix2 0 0))) ?_
  refine (Ideal.multiReduction_maximumf_single _ _ _ _ _ _).trans ?_
  show Finset.fold max (Ideal.ofBits .f32 0xFF800000#32)
      (fun r : Fin 1024 => k0_pay8 (F := Ideal) v3 v9 ((_ : S1x1024.Reduces [1] S1).lift (ix1 0) r)) Finset.univ = _
  rw [Cert.Attn.ofBits_neg_inf]
  simp only [lift_row]

/-- The factor that rescales the old sums: exp(old maximum − new maximum). -/
theorem pay10_apply (v3 : Vec Ideal S1x1024x1024 .f32) (v9 : Vec Ideal S1x1024 .f32) (v12 : Vec Ideal S1x1 .f32) :
    k0_pay10 (F := Ideal) v3 v9 v12 (ix2 0 0) = Ideal.exp (v12 (ix2 0 0) - k0_pay9 (F := Ideal) v3 v9 v12 (ix2 0 0)) := by
  unfold k0_pay10
  rfl

/-- A row's weight: exp(score − new maximum). -/
theorem pay11_apply (v3 : Vec Ideal S1x1024x1024 .f32) (v9 : Vec Ideal S1x1024 .f32) (v12 : Vec Ideal S1x1 .f32) (r : Fin 1024) :
    k0_pay11 (F := Ideal) v3 v9 v12 (ix2 0 r)
      = Ideal.exp (k0_pay8 (F := Ideal) v3 v9 (ix2 0 r) - k0_pay9 (F := Ideal) v3 v9 v12 (ix2 0 0)) := by
  unfold k0_pay11
  show Ideal.exp (k0_pay8 (F := Ideal) v3 v9 (ix2 0 r) - broadcastTo S1x1024 (k0_pay9 (F := Ideal) v3 v9 v12) _ (ix2 0 r)) = _
  rw [broadcastTo_11_apply]

/-- The new sum of weights: the old one rescaled, plus the tile's weights. -/
theorem pay12_apply (v3 : Vec Ideal S1x1024x1024 .f32) (v9 : Vec Ideal S1x1024 .f32) (v12 : Vec Ideal S1x1 .f32)
    (v21 : Vec Ideal S1x1 .f32) :
    k0_pay12 (F := Ideal) v3 v9 v12 v21 (ix2 0 0)
      = k0_pay10 (F := Ideal) v3 v9 v12 (ix2 0 0) * v21 (ix2 0 0) + ∑ r : Fin 1024, k0_pay11 (F := Ideal) v3 v9 v12 (ix2 0 r) := by
  unfold k0_pay12
  rw [shapeCast_self, addf_apply, mulf_apply, shapeCast_a_1a_apply]
  refine congrArg (k0_pay10 (F := Ideal) v3 v9 v12 (ix2 0 0) * v21 (ix2 0 0) + ·) ?_
  refine (Ideal.multiReduction_add_single _ _ _ _ _ _).trans ?_
  show ∑ r : Fin 1024, k0_pay11 (F := Ideal) v3 v9 v12 ((_ : S1x1024.Reduces [1] S1).lift (ix1 0) r) = _
  simp only [lift_row]

/-- The tile's weighted sum of raw value rows. -/
theorem pay13_apply (v3 : Vec Ideal S1x1024x1024 .f32) (v6 : Vec Ideal S1x1024x1024 .f32) (v9 : Vec Ideal S1x1024 .f32)
    (v12 : Vec Ideal S1x1 .f32) (e : Fin 1024) :
    k0_pay13 (F := Ideal) v3 v6 v9 v12 (ix2 0 e)
      = ∑ r : Fin 1024, k0_pay11 (F := Ideal) v3 v9 v12 (ix2 0 r) * v6 (ix3 0 r e) := by
  unfold k0_pay13
  refine (matmul_pv_apply (φ₁ := .bf16) (φ₂ := .bf16) _ _ e).trans ?_
  refine Finset.sum_congr rfl fun r _ => ?_
  rw [truncf_apply, truncf_apply, shapeCast_1ab_ab_apply]

/-- The old weighted sum rescaled. -/
theorem pay14_apply (v3 : Vec Ideal S1x1024x1024 .f32) (v9 : Vec Ideal S1x1024 .f32) (v12 : Vec Ideal S1x1 .f32)
    (v31 : Vec Ideal S1x1024 .f32) (e : Fin 1024) :
    k0_pay14 (F := Ideal) v3 v9 v12 v31 (ix2 0 e) = k0_pay10 (F := Ideal) v3 v9 v12 (ix2 0 0) * v31 (ix2 0 e) := by
  unfold k0_pay14
  rw [mulf_apply, broadcastTo_11_apply]

/-- The new weighted sum: the rescaled old one plus the tile's. -/
theorem pay1_apply (v30 v33 : FVec Ideal S1x1024 .f32) (e : Fin 1024) :
    k0_pay1 (F := Ideal) v30 v33 (ix2 0 e) = v33 (ix2 0 e) + v30 (ix2 0 e) := by
  unfold k0_pay1
  rw [shapeCast_self, addf_apply]

/-- The stored maximum is the computed one. -/
theorem pay2_eq (v15 : FVec Ideal S1x1 .f32) : k0_pay2 (F := Ideal) v15 = v15 := by
  unfold k0_pay2
  exact shapeCast_self _ _

/-- The projected query folded back through the transposed projection, scaled. -/
theorem pay4_apply (x0 : Vec Ideal S1x1x1024 .f32) (x3 : Vec Ideal S1024x256 .bf16) (x4 : Vec Ideal S1x256 .f32) (d : Fin 1024) :
    k0_pay4 (F := Ideal) x0 x3 x4 (ix2 0 d)
      = (∑ a : Fin 256, ((∑ d' : Fin 1024, x0 (ix3 0 0 d') * x3 (ix2 d' a)) + x4 (ix2 0 a)) * x3 (ix2 d a))
          * Ideal.ofBits .f32 0x3D800000#32 := by
  unfold k0_pay4
  rw [shapeCast_self, shapeCast_self, shapeCast_self, mulf_apply, broadcast_apply]
  refine congrArg (· * Ideal.ofBits .f32 0x3D800000#32) ?_
  refine (matmul_wq_apply (φ₁ := .bf16) (φ₂ := .bf16) _ _ d).trans ?_
  refine Finset.sum_congr rfl fun a _ => ?_
  rw [truncf_apply, addf_apply]
  refine congrArg (fun t => (t + x4 (ix2 0 a)) * x3 (ix2 d a)) ?_
  refine (matmul_qw_apply (φ₁ := .bf16) (φ₂ := .bf16) _ _ a).trans ?_
  refine Finset.sum_congr rfl fun d' _ => ?_
  rw [truncf_apply, shapeCast_1ab_ab_apply]

/-- The result: the quotient of the two sums through the value projection, plus its bias. -/
theorem pay3_apply (v44 : Vec Ideal S1x1024 .f32) (v45 : Vec Ideal S1x1 .f32) (v48 : Vec Ideal S1024x1024 .bf16)
    (v52 : Vec Ideal S1x1024 .f32) (e' : Fin 1024) :
    k0_pay3 (F := Ideal) v44 v45 v48 v52 (ix3 0 0 e')
      = (∑ e : Fin 1024, Ideal.div (v44 (ix2 0 e)) (v45 (ix2 0 0)) * v48 (ix2 e e')) + v52 (ix2 0 e') := by
  unfold k0_pay3
  rw [shapeCast_self, shapeCast_self, shapeCast_ab_1ab_apply, addf_apply]
  refine congrArg (· + v52 (ix2 0 e')) ?_
  refine (matmul_pv_apply (φ₁ := .bf16) (φ₂ := .bf16) _ _ e').trans ?_
  refine Finset.sum_congr rfl fun e _ => ?_
  rw [truncf_apply, divf_apply, broadcastTo_11_apply]

/-- Before the first tile the running maximum is −∞ … -/
theorem pay5_apply : k0_pay5 (F := Ideal) (ix2 0 0) = (⊥ : EReal) := by
  unfold k0_pay5
  rw [shapeCast_self, broadcast_apply]
  exact Cert.Attn.ofBits_neg_inf

/-- … the sum of weights is 0 … -/
theorem pay6_apply : k0_pay6 (F := Ideal) (ix2 0 0) = (0 : EReal) := by
  unfold k0_pay6
  rw [shapeCast_self, broadcast_apply]
  exact Ideal.ofBits_zero_f32

/-- … and so is the weighted sum, at every lane. -/
theorem pay7_apply (e : Fin 1024) : k0_pay7 (F := Ideal) (ix2 0 e) = (0 : EReal) := by
  unfold k0_pay7
  rw [shapeCast_self, broadcast_apply]
  exact Ideal.ofBits_zero_f32

end Cert.KernelIdeal.PayIdx

end
-- ==== Proof.Spec.lean ====
/-
  Single-query attention with a shared query/key projection, written three ways over plain index types.

  The kernel's way (section "streamed"): the query is projected, folded back through the transposed projection and scaled
  once; a key row's score is the folded query's product with the raw key row; the 4096 key rows are met in four
  tiles of 1024, carrying a running maximum, a running sum of weights and a running weighted sum of raw value rows;
  the quotient of the two sums goes through the value projection at the end.

  The reference's way (section "two-pass"): keys and values are projected first, a score is the projected query's
  product with the projected key over the square root of the projection's width, and the softmax is taken in two
  passes over all 4096 rows.

  The closed form over the reals (section "closed") that both equal when every input entry is real.
-/
import Idealize.ShloMosaic.PureOps.Ideal
import Idealize.ShloMosaic.Lib.ValueIdx
import Mathlib.Analysis.SpecialFunctions.Exp

noncomputable section

namespace Cert.AttnSpec

open Idealize.ShloMosaic Idealize.ShloMosaic.ValueIdx

/-- Key row `r` of tile `j`. -/
def rowOf (j : Fin 4) (r : Fin 1024) : Fin 4096 := ⟨1024 * j.val + r.val, by have := j.isLt; have := r.isLt; omega⟩

/-! ## Arrays read at coordinates -/

/-- A rank-3 array with a unit middle axis, read at (b, 0, d). -/
def un3 {n0 n2 : Nat} (x : (⟨3, ![n0, 1, n2]⟩ : Shape).Idx → EReal) : Fin n0 → Fin n2 → EReal := fun b d => x (ix3 b 0 d)
def arr3 {n0 n1 n2 : Nat} (x : (⟨3, ![n0, n1, n2]⟩ : Shape).Idx → EReal) : Fin n0 → Fin n1 → Fin n2 → EReal :=
  fun a b c => x (ix3 a b c)
def arr2 {n0 n1 : Nat} (x : (⟨2, ![n0, n1]⟩ : Shape).Idx → EReal) : Fin n0 → Fin n1 → EReal := fun a b => x (ix2 a b)
def arr1 {n0 : Nat} (x : (⟨1, ![n0]⟩ : Shape).Idx → EReal) : Fin n0 → EReal := fun a => x (ix1 a)

section ext

variable (q : Fin 16 → Fin 1024 → EReal) (k v : Fin 16 → Fin 4096 → Fin 1024 → EReal)
  (W : Fin 1024 → Fin 256 → EReal) (bq : Fin 256 → EReal) (Wv : Fin 1024 → Fin 1024 → EReal) (bv : Fin 1024 → EReal)

/-- The projected query: q·W + bq. -/
def qproj (b : Fin 16) (a : Fin 256) : EReal := (∑ d : Fin 1024, q b d * W d a) + bq a

/-! ### streamed -/

/-- The scale the kernel multiplies by: the f32 word of 0.0625. -/
def scale : EReal := Ideal.ofBits .f32 0x3D800000#32

/-- The projected query folded back through the transposed projection, scaled. -/
def qfold (b : Fin 16) (d : Fin 1024) : EReal := (∑ a : Fin 256, qproj q W bq b a * W d a) * scale

/-- A raw key row's score. -/
def score (b : Fin 16) (kk : Fin 4096) : EReal := ∑ d : Fin 1024, qfold q W bq b d * k b kk d

/-- What is carried from tile to tile: the running maximum, the running sum of weights, the running weighted sum
    of raw value rows. -/
structure Carry where
  top : EReal
  den : EReal
  num : Fin 1024 → EReal

/-- Before the first tile. -/
def Carry.init : Carry := ⟨⊥, 0, fun _ => 0⟩

/-- One tile: the new maximum, the old sums rescaled by exp(old maximum − new maximum) plus the tile's. -/
def tileStep (b : Fin 16) (j : Fin 4) (s : Carry) : Carry :=
  let top' : EReal := max s.top ((Finset.univ : Finset (Fin 1024)).fold max ⊥ (fun r => score q k W bq b (rowOf j r)))
  let a : EReal := Ideal.exp (s.top - top')
  { top := top'
    den := a * s.den + ∑ r : Fin 1024, Ideal.exp (score q k W bq b (rowOf j r) - top')
    num := fun e => a * s.num e + ∑ r : Fin 1024, Ideal.exp (score q k W bq b (rowOf j r) - top') * v b (rowOf j r) e }

/-- The carry after tiles 0 … j. -/
def carryAt (b : Fin 16) : (j : ℕ) → j < 4 → Carry
  | 0, h => tileStep q k v W bq b ⟨0, h⟩ Carry.init
  | j + 1, h => tileStep q k v W bq b ⟨j + 1, h⟩ (carryAt b j (Nat.lt_of_succ_lt h))

/-- The kernel's result: the quotient of the last carry's sums through the value projection. -/
def streamed (b : Fin 16) (e' : Fin 1024) : EReal :=
  (∑ e : Fin 1024, Ideal.div ((carryAt q k v W bq b 3 (by decide)).num e) ((carryAt q k v W bq b 3 (by decide)).den) * Wv e e') + bv e'

/-! ### two-pass -/

def kproj (b : Fin 16) (kk : Fin 4096) (a : Fin 256) : EReal := (∑ d : Fin 1024, k b kk d * W d a) + bq a
def vproj (b : Fin 16) (kk : Fin 4096) (e : Fin 1024) : EReal := (∑ d : Fin 1024, v b kk d * Wv d e) + bv e

/-- The square root of the f32 word of 256. -/
def root : EReal := Ideal.sqrt (Ideal.ofBits .f32 0x43800000#32)

/-- A projected key row's score. -/
def scoreP (b : Fin 16) (kk : Fin 4096) : EReal :=
  Ideal.div (∑ a : Fin 256, qproj q W bq b a * kproj k W bq b kk a) root

/-- The row maximum, taken from −∞ and then against −∞ once more. -/
def topP (b : Fin 16) : EReal := max ⊥ ((Finset.univ : Finset (Fin 4096)).fold max ⊥ (fun kk => scoreP q k W bq b kk))

/-- The reference's result. -/
def twoPass (b : Fin 16) (e : Fin 1024) : EReal :=
  ∑ kk : Fin 4096,
    Ideal.div (Ideal.exp (scoreP q k W bq b kk - topP q k W bq b))
        ((0 : EReal) + ∑ kk' : Fin 4096, Ideal.exp (scoreP q k W bq b kk' - topP q k W bq b))
      * vproj v Wv bv b kk e

end ext

/-! ## closed -/

section real

variable (q : Fin 16 → Fin 1024 → ℝ) (k v : Fin 16 → Fin 4096 → Fin 1024 → ℝ)
  (W : Fin 1024 → Fin 256 → ℝ) (bq : Fin 256 → ℝ) (Wv : Fin 1024 → Fin 1024 → ℝ) (bv : Fin 1024 → ℝ)

def qprojR (b : Fin 16) (a : Fin 256) : ℝ := (∑ d : Fin 1024, q b d * W d a) + bq a
def qfoldR (b : Fin 16) (d : Fin 1024) : ℝ := (∑ a : Fin 256, qprojR q W bq b a * W d a) * (1 / 16)
def scoreR (b : Fin 16) (kk : Fin 4096) : ℝ := ∑ d : Fin 1024, qfoldR q W bq b d * k b kk d

/-- Softmax-weighted mean of the raw value rows, through the value projection. -/
def closed (b : Fin 16) (e' : Fin 1024) : ℝ :=
  (∑ e : Fin 1024,
      ((∑ kk : Fin 4096, Real.exp (scoreR q k W bq b kk) * v b kk e) / (∑ kk : Fin 4096, Real.exp (scoreR q k W bq b kk)))
        * Wv e e') + bv e'

end real

/-- Real data as extended reals. -/
def up1 {α : Type} (f : α → ℝ) : α → EReal := fun a => (f a : EReal)
def up2 {α β : Type} (f : α → β → ℝ) : α → β → EReal := fun a b => (f a b : EReal)
def up3 {α β γ : Type} (f : α → β → γ → ℝ) : α → β → γ → EReal := fun a b c => (f a b c : EReal)

end Cert.AttnSpec

end
-- ==== Proof.Step.lean ====
/-
  One key tile's update, read at an index. The body's arithmetic is applied to a key block, a value block, the
  stored query row and the three carried values; when those hold, entry by entry, a batch's keys and values at the
  tile's rows, the folded query, and a carry (running maximum, weight sum, weighted value sum), the results are the
  next carry of the specification: the new maximum is the old one against the tile's scores' maximum, both sums are
  rescaled by the exponential of the old maximum less the new one and the tile's terms are added. The last tile's
  output row is the quotient of the two sums through the value projection, plus its bias.
-/
import proofs.«410998_j13451837571855_3_alg».proof.Proof.Gen.KernelIdeal.Skeleton
import proofs.«410998_j13451837571855_3_alg».proof.Proof.PayIdx
import proofs.«410998_j13451837571855_3_alg».proof.Proof.Spec

noncomputable section

open Idealize.ShloMosaic Idealize.ShloMosaic.ValueIdx

namespace Cert.KernelIdeal.Step

open Cert.KernelIdeal Cert.KernelIdeal.Gen Cert.KernelIdeal.PayIdx Cert.AttnSpec

variable (q : Fin 16 → Fin 1024 → EReal) (k v : Fin 16 → Fin 4096 → Fin 1024 → EReal)
  (W : Fin 1024 → Fin 256 → EReal) (bq : Fin 256 → EReal) (Wv : Fin 1024 → Fin 1024 → EReal) (bv : Fin 1024 → EReal)
  (b : Fin 16) (j : Fin 4) (s : Carry)

/-! ## The specification's step, field by field -/

/-- The tile's maximum of scores, folded from −∞. -/
abbrev tileTop : EReal := (Finset.univ : Finset (Fin 1024)).fold max ⊥ (fun r => score q k W bq b (rowOf j r))

theorem tileStep_top : (tileStep q k v W bq b j s).top = max s.top (tileTop q k W bq b j) := rfl

theorem tileStep_den : (tileStep q k v W bq b j s).den
    = Ideal.exp (s.top - max s.top (tileTop q k W bq b j)) * s.den
      + ∑ r : Fin 1024, Ideal.exp (score q k W bq b (rowOf j r) - max s.top (tileTop q k W bq b j)) := rfl

theorem tileStep_num (e : Fin 1024) : (tileStep q k v W bq b j s).num e
    = Ideal.exp (s.top - max s.top (tileTop q k W bq b j)) * s.num e
      + ∑ r : Fin 1024, Ideal.exp (score q k W bq b (rowOf j r) - max s.top (tileTop q k W bq b j)) * v b (rowOf j r) e := rfl

/-! ## The body's arithmetic on blocks that hold the batch's data -/

/-- The stored query row: the projected query folded back through the transposed projection, scaled. -/
theorem query_eq (x0 : Vec Ideal S1x1x1024 .f32) (x3 : Vec Ideal S1024x256 .bf16) (x4 : Vec Ideal S1x256 .f32)
    (h0 : ∀ d, x0 (ix3 0 0 d) = q b d) (h3 : ∀ d a, x3 (ix2 d a) = W d a) (h4 : ∀ a, x4 (ix2 0 a) = bq a) (d : Fin 1024) :
    k0_pay4 (F := Ideal) x0 x3 x4 (ix2 0 d) = qfold q W bq b d := by
  rw [pay4_apply]
  unfold qfold qproj scale
  simp only [h0, h3, h4]

variable (x1 x2 : Vec Ideal S1x1024x1024 .f32) (qv : Vec Ideal S1x1024 .f32) (mv lv : Vec Ideal S1x1 .f32)
  (accv : Vec Ideal S1x1024 .f32)
  (hk : ∀ r d, x1 (ix3 0 r d) = k b (rowOf j r) d) (hv : ∀ r e, x2 (ix3 0 r e) = v b (rowOf j r) e)
  (hq : ∀ d, qv (ix2 0 d) = qfold q W bq b d)
  (hm : mv (ix2 0 0) = s.top) (hl : lv (ix2 0 0) = s.den) (ha : ∀ e, accv (ix2 0 e) = s.num e)

include hk hq in
/-- A tile row's score: the stored query row against the raw key row. -/
theorem score_eq (r : Fin 1024) : k0_pay8 (F := Ideal) x1 qv (ix2 0 r) = score q k W bq b (rowOf j r) := by
  rw [pay8_apply]
  unfold score
  simp only [hq, hk]

include hk hq hm in
/-- The new maximum. -/
theorem top_eq : k0_pay9 (F := Ideal) x1 qv mv (ix2 0 0) = max s.top (tileTop q k W bq b j) := by
  rw [pay9_apply, hm]
  simp only [score_eq q k W bq b j x1 qv hk hq]

include hk hq hm in
theorem top_eq' : k0_pay9 (F := Ideal) x1 qv mv (ix2 0 0) = (tileStep q k v W bq b j s).top :=
  (top_eq q k W bq b j s x1 qv mv hk hq hm).trans (tileStep_top q k v W bq b j s).symm

include hk hq hm hl in
/-- The new weight sum. -/
theorem den_eq : k0_pay12 (F := Ideal) x1 qv mv lv (ix2 0 0) = (tileStep q k v W bq b j s).den := by
  rw [tileStep_den, pay12_apply, pay10_apply, hl, hm, top_eq q k W bq b j s x1 qv mv hk hq hm]
  congr 1
  refine Finset.sum_congr rfl fun r _ => ?_
  rw [pay11_apply, score_eq q k W bq b j x1 qv hk hq, top_eq q k W bq b j s x1 qv mv hk hq hm]

include hk hv hq hm ha in
/-- The new weighted value sum, at a column. -/
theorem num_eq (e : Fin 1024) :
    k0_pay1 (F := Ideal) (k0_pay13 x1 x2 qv mv) (k0_pay14 x1 qv mv accv) (ix2 0 e) = (tileStep q k v W bq b j s).num e := by
  rw [tileStep_num, pay1_apply, pay14_apply, pay13_apply, pay10_apply, hm, ha, top_eq q k W bq b j s x1 qv mv hk hq hm]
  congr 1
  refine Finset.sum_congr rfl fun r _ => ?_
  rw [pay11_apply, score_eq q k W bq b j x1 qv hk hq, top_eq q k W bq b j s x1 qv mv hk hq hm, hv]

omit x1 x2 qv mv hk hv hq hm in
include hl ha in
/-- The output row from the sums: their quotient through the value projection, plus the bias. -/
theorem out_eq (x5 : Vec Ideal S1024x1024 .bf16) (x6 : Vec Ideal S1x1024 .f32)
    (h5 : ∀ e e', x5 (ix2 e e') = Wv e e') (h6 : ∀ e, x6 (ix2 0 e) = bv e) (e' : Fin 1024) :
    k0_pay3 (F := Ideal) accv lv x5 x6 (ix3 0 0 e') = (∑ e : Fin 1024, Ideal.div (s.num e) s.den * Wv e e') + bv e' := by
  rw [pay3_apply]
  simp only [ha, hl, h5, h6]

end Cert.KernelIdeal.Step

end
-- ==== Proof.Blocks.lean ====
/-
  The seven input windows of the attention kernel's 16 × 4 grid, each block read back to the launched arrays at
  plain coordinates: at point `t` (batch `t / 4`, key tile `t % 4`) the query's block is the batch's query row, the
  key and value blocks are the tile's 1024 rows of the batch, and the two weight matrices and two biases are staged
  whole, through the host's conversion (the identity over the extended reals) and reshape (a vector as one row).
-/
import proofs.«410998_j13451837571855_3_alg».proof.Proof.Gen.KernelIdeal.Frame
import proofs.«410998_j13451837571855_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Cert.AttnSpec Idealize.ShloMosaic Idealize.ShloMosaic.ValueIdx
open Idealize.ShloMosaic.TcCoe Idealize.SL.Sem

variable (m : (ℓ : Loc nD τ sig) → Buf (Elt Ideal) ℓ)

/-! ## The index maps over the grid

Point `t` of the 16 × 4 grid is batch `t / 4`, key tile `t % 4`. The query's window moves with the batch alone, the
key and value windows with the batch and the tile, the weights' and biases' windows not at all. -/

theorem idx0 : ∀ t : Fin cfg0.N, win0_0.index t (0 : Fin 3) = t.val / 4 ∧ win0_0.index t 1 = 0 ∧ win0_0.index t 2 = 0 :=
  (by decide +kernel : ∀ t : Fin grid0.N, _)
theorem idx1 : ∀ t : Fin cfg0.N, win0_1.index t (0 : Fin 3) = t.val / 4 ∧ win0_1.index t 1 = t.val % 4 ∧ win0_1.index t 2 = 0 :=
  (by decide +kernel : ∀ t : Fin grid0.N, _)
theorem idx2 : ∀ t : Fin cfg0.N, win0_2.index t (0 : Fin 3) = t.val / 4 ∧ win0_2.index t 1 = t.val % 4 ∧ win0_2.index t 2 = 0 :=
  (by decide +kernel : ∀ t : Fin grid0.N, _)
theorem idx3 : ∀ t : Fin cfg0.N, win0_3.index t (0 : Fin 2) = 0 ∧ win0_3.index t 1 = 0 :=
  (by decide +kernel : ∀ t : Fin grid0.N, _)
theorem idx4 : ∀ t : Fin cfg0.N, win0_4.index t (0 : Fin 2) = 0 ∧ win0_4.index t 1 = 0 :=
  (by decide +kernel : ∀ t : Fin grid0.N, _)
theorem idx5 : ∀ t : Fin cfg0.N, win0_5.index t (0 : Fin 2) = 0 ∧ win0_5.index t 1 = 0 :=
  (by decide +kernel : ∀ t : Fin grid0.N, _)
theorem idx6 : ∀ t : Fin cfg0.N, win0_6.index t (0 : Fin 2) = 0 ∧ win0_6.index t 1 = 0 :=
  (by decide +kernel : ∀ t : Fin grid0.N, _)

theorem batch_lt (t : Fin cfg0.N) : t.val / 4 < 16 := by have := t.isLt; have : cfg0.N = 64 := N_0; omega
theorem tile_lt (t : Fin cfg0.N) : t.val % 4 < 4 := by omega

/-! ## The blocks of the arrays the region finds as launched

A block's coordinate in its array is the block's index times the block's extent plus the coordinate inside the block. -/

/-- The query's block at point `t` is the query row of batch `t / 4`. -/
theorem blk0 (c : Dev nD) (t : Fin cfg0.N) (d : Fin 1024) :
    (iblk m c 0 t : Vec Ideal S1x1x1024 .f32) (ix3 0 0 d)
      = un3 (m ((c : Thread nD τ).loc main_arg0)) ⟨t.val / 4, batch_lt t⟩ d := by
  unfold iblk un3
  rw [View.read_apply]
  show V m c main_arg0 _ = m ((c : Thread nD τ).loc main_arg0) _
  rw [V_main_arg0]
  congr 1
  funext a
  apply Fin.ext
  match a with
  | ⟨0, _⟩ => show win0_0.index t 0 * 1 + 1 * 0 = t.val / 4; rw [(idx0 t).1]; omega
  | ⟨1, _⟩ => show win0_0.index t 1 * 1 + 1 * 0 = 0; rw [(idx0 t).2.1]
  | ⟨2, _⟩ => show win0_0.index t 2 * 1024 + 1 * d.val = d.val; rw [(idx0 t).2.2]; omega

/-- The key block at point `t` holds the 1024 key rows of tile `t % 4` of batch `t / 4`. -/
theorem blk1 (c : Dev nD) (t : Fin cfg0.N) (r d : Fin 1024) :
    (iblk m c 1 t : Vec Ideal S1x1024x1024 .f32) (ix3 0 r d)
      = arr3 (m ((c : Thread nD τ).loc main_arg1)) ⟨t.val / 4, batch_lt t⟩ (rowOf ⟨t.val % 4, tile_lt t⟩ r) d := by
  unfold iblk arr3 rowOf
  rw [View.read_apply]
  show V m c main_arg1 _ = m ((c : Thread nD τ).loc main_arg1) _
  rw [V_main_arg1]
  congr 1
  funext a
  apply Fin.ext
  match a with
  | ⟨0, _⟩ => show win0_1.index t 0 * 1 + 1 * 0 = t.val / 4; rw [(idx1 t).1]; omega
  | ⟨1, _⟩ => show win0_1.index t 1 * 1024 + 1 * r.val = 1024 * (t.val % 4) + r.val; rw [(idx1 t).2.1]; omega
  | ⟨2, _⟩ => show win0_1.index t 2 * 1024 + 1 * d.val = d.val; rw [(idx1 t).2.2]; omega

/-- The value block at point `t` holds the 1024 value rows of tile `t % 4` of batch `t / 4`. -/
theorem blk2 (c : Dev nD) (t : Fin cfg0.N) (r d : Fin 1024) :
    (iblk m c 2 t : Vec Ideal S1x1024x1024 .f32) (ix3 0 r d)
      = arr3 (m ((c : Thread nD τ).loc main_arg2)) ⟨t.val / 4, batch_lt t⟩ (rowOf ⟨t.val % 4, tile_lt t⟩ r) d := by
  unfold iblk arr3 rowOf
  rw [View.read_apply]
  show V m c main_arg2 _ = m ((c : Thread nD τ).loc main_arg2) _
  rw [V_main_arg2]
  congr 1
  funext a
  apply Fin.ext
  match a with
  | ⟨0, _⟩ => show win0_2.index t 0 * 1 + 1 * 0 = t.val / 4; rw [(idx2 t).1]; omega
  | ⟨1, _⟩ => show win0_2.index t 1 * 1024 + 1 * r.val = 1024 * (t.val % 4) + r.val; rw [(idx2 t).2.1]; omega
  | ⟨2, _⟩ => show win0_2.index t 2 * 1024 + 1 * d.val = d.val; rw [(idx2 t).2.2]; omega

/-! ## The arrays a host operation wrote before the region

The two weight matrices are converted to bf16, the identity over the extended reals; the two biases are reshaped from
a vector to a one-row matrix, which reads the vector at the column. -/

/-- The query/key projection's weights as the region finds them: the launched matrix. -/
theorem V_main_v0 (c : Dev nD) :
    (V m c main_v0 : S1024x256.Idx → EReal)
      = (truncf .bf16 (m ((c : Thread nD τ).loc main_arg3) : FVec Ideal S1024x256 .f32) bitsLt_bf16_f32 : FVec Ideal S1024x256 .bf16) := by
  show StableHlo.after hostOps0 (fun b => m (c, b)) (Proc.devRef .tc main_v0) = _
  after_results

/-- The value projection's weights as the region finds them: the launched matrix. -/
theorem V_main_v1 (c : Dev nD) :
    (V m c main_v1 : S1024x1024.Idx → EReal)
      = (truncf .bf16 (m ((c : Thread nD τ).loc main_arg5) : FVec Ideal S1024x1024 .f32) bitsLt_bf16_f32 : FVec Ideal S1024x1024 .bf16) := by
  show StableHlo.after hostOps0 (fun b => m (c, b)) (Proc.devRef .tc main_v1) = _
  after_results

/-- The query/key projection's bias as the region finds it: the launched vector as one row. -/
theorem V_main_v2 (c : Dev nD) :
    (V m c main_v2 : S1x256.Idx → EReal)
      = shapeCast S1x256 (m ((c : Thread nD τ).loc main_arg4) : S256.Idx → EReal) shapeCasts_S256_S1x256 := by
  show StableHlo.after hostOps0 (fun b => m (c, b)) (Proc.devRef .tc main_v2) = _
  after_results
  rfl

/-- The value projection's bias as the region finds it: the launched vector as one row. -/
theorem V_main_v3 (c : Dev nD) :
    (V m c main_v3 : S1x1024.Idx → EReal)
      = shapeCast S1x1024 (m ((c : Thread nD τ).loc main_arg6) : S1024.Idx → EReal) shapeCasts_S1024_S1x1024 := by
  show StableHlo.after hostOps0 (fun b => m (c, b)) (Proc.devRef .tc main_v3) = _
  after_results
  rfl

/-- The query/key projection's weights: the whole matrix at every point. -/
theorem blk3 (c : Dev nD) (t : Fin cfg0.N) (d : Fin 1024) (a : Fin 256) :
    (iblk m c 3 t : Vec Ideal S1024x256 .bf16) (ix2 d a) = arr2 (m ((c : Thread nD τ).loc main_arg3)) d a := by
  unfold iblk arr2
  rw [View.read_apply]
  show V m c main_v0 _ = m ((c : Thread nD τ).loc main_arg3) _
  rw [V_main_v0, truncf_apply]
  congr 1
  funext x
  apply Fin.ext
  match x with
  | ⟨0, _⟩ => show win0_3.index t 0 * 1024 + 1 * d.val = d.val; rw [(idx3 t).1]; omega
  | ⟨1, _⟩ => show win0_3.index t 1 * 256 + 1 * a.val = a.val; rw [(idx3 t).2]; omega

/-- The query/key projection's bias: the whole vector at every point. -/
theorem blk4 (c : Dev nD) (t : Fin cfg0.N) (a : Fin 256) :
    (iblk m c 4 t : Vec Ideal S1x256 .f32) (ix2 0 a) = arr1 (m ((c : Thread nD τ).loc main_arg4)) a := by
  unfold iblk arr1
  rw [View.read_apply]
  show V m c main_v2 _ = m ((c : Thread nD τ).loc main_arg4) _
  rw [V_main_v2]
  refine shapeCast_apply (m ((c : Thread nD τ).loc main_arg4) : S256.Idx → EReal) shapeCasts_S256_S1x256 _ (ix1 a) ?_
  show (S256.rowMajor (ix1 a)).val = (S1x256.rowMajor _).val
  rw [Shape.rowMajor_val_two, Shape.rowMajor_val_one]
  show a.val = (win0_4.index t 0 * 1 + 1 * 0) * 256 + (win0_4.index t 1 * 256 + 1 * a.val)
  rw [(idx4 t).1, (idx4 t).2]; omega

/-- The value projection's weights: the whole matrix at every point. -/
theorem blk5 (c : Dev nD) (t : Fin cfg0.N) (e e' : Fin 1024) :
    (iblk m c 5 t : Vec Ideal S1024x1024 .bf16) (ix2 e e') = arr2 (m ((c : Thread nD τ).loc main_arg5)) e e' := by
  unfold iblk arr2
  rw [View.read_apply]
  show V m c main_v1 _ = m ((c : Thread nD τ).loc main_arg5) _
  rw [V_main_v1, truncf_apply]
  congr 1
  funext x
  apply Fin.ext
  match x with
  | ⟨0, _⟩ => show win0_5.index t 0 * 1024 + 1 * e.val = e.val; rw [(idx5 t).1]; omega
  | ⟨1, _⟩ => show win0_5.index t 1 * 1024 + 1 * e'.val = e'.val; rw [(idx5 t).2]; omega

/-- The value projection's bias: the whole vector at every point. -/
theorem blk6 (c : Dev nD) (t : Fin cfg0.N) (e : Fin 1024) :
    (iblk m c 6 t : Vec Ideal S1x1024 .f32) (ix2 0 e) = arr1 (m ((c : Thread nD τ).loc main_arg6)) e := by
  unfold iblk arr1
  rw [View.read_apply]
  show V m c main_v3 _ = m ((c : Thread nD τ).loc main_arg6) _
  rw [V_main_v3]
  refine shapeCast_apply (m ((c : Thread nD τ).loc main_arg6) : S1024.Idx → EReal) shapeCasts_S1024_S1x1024 _ (ix1 e) ?_
  show (S1024.rowMajor (ix1 e)).val = (S1x1024.rowMajor _).val
  rw [Shape.rowMajor_val_two, Shape.rowMajor_val_one]
  show e.val = (win0_6.index t 0 * 1 + 1 * 0) * 1024 + (win0_6.index t 1 * 1024 + 1 * e.val)
  rw [(idx6 t).1, (idx6 t).2]; omega

end Cert.KernelIdeal.Blocks
end
-- ==== Proof.Carried.lean ====
/-
  The carried scratch, point by point. After the body at grid point n (batch n / 4, key tile n % 4) the four
  scratch buffers hold the running maximum, the weight sum and the weighted value sum of the specification's carry
  after tiles 0 … n % 4 of that batch, and the batch's scaled folded query. By induction on the point: at a batch's
  first tile the body resets the buffers and updates from the initial carry; at the other tiles it updates what the
  point before left, which belongs to the same batch. At a batch's last tile the output block is the specification's
  result row of the batch.
-/
import proofs.«410998_j13451837571855_3_alg».proof.Proof.Gen.KernelIdeal.Frame
import proofs.«410998_j13451837571855_3_alg».proof.Proof.Pieces
import proofs.«410998_j13451837571855_3_alg».proof.Proof.Step
import proofs.«410998_j13451837571855_3_alg».proof.Proof.Blocks
import proofs.«410998_j13451837571855_3_alg».proof.Proof.Spec

noncomputable section

open Idealize.ShloMosaic Idealize.ShloMosaic.TcCoe Idealize.ShloMosaic.ValueIdx Idealize.SL.Sem

namespace Cert.KernelIdeal.Carried

open Cert.KernelIdeal Cert.KernelIdeal.Gen Cert.KernelIdeal.PayIdx Cert.KernelIdeal.Blocks Cert.AttnSpec

variable (m : (ℓ : Loc nD τ sig) → Buf (Elt Ideal) ℓ) (c : Dev nD)

/-! ## The argument arrays at coordinates -/

abbrev aq : Fin 16 → Fin 1024 → EReal := un3 (m ((c : Thread nD τ).loc main_arg0))
abbrev ak : Fin 16 → Fin 4096 → Fin 1024 → EReal := arr3 (m ((c : Thread nD τ).loc main_arg1))
abbrev av : Fin 16 → Fin 4096 → Fin 1024 → EReal := arr3 (m ((c : Thread nD τ).loc main_arg2))
abbrev aW : Fin 1024 → Fin 256 → EReal := arr2 (m ((c : Thread nD τ).loc main_arg3))
abbrev ab : Fin 256 → EReal := arr1 (m ((c : Thread nD τ).loc main_arg4))
abbrev aWv : Fin 1024 → Fin 1024 → EReal := arr2 (m ((c : Thread nD τ).loc main_arg5))
abbrev abv : Fin 1024 → EReal := arr1 (m ((c : Thread nD τ).loc main_arg6))

/-- A point's batch and key tile. -/
abbrev bt (t : Fin cfg0.N) : Fin 16 := ⟨t.val / 4, batch_lt t⟩
abbrev jt (t : Fin cfg0.N) : Fin 4 := ⟨t.val % 4, tile_lt t⟩

/-- The specification's tile step over the argument arrays. -/
abbrev stepOf (b : Fin 16) (j : Fin 4) (s : Carry) : Carry := tileStep (aq m c) (ak m c) (av m c) (aW m c) (ab m c) b j s
/-- The specification's carry over the argument arrays. -/
abbrev carryOf (b : Fin 16) (j : ℕ) (hj : j < 4) : Carry := carryAt (aq m c) (ak m c) (av m c) (aW m c) (ab m c) b j hj

theorem carryOf_congr {b b' : Fin 16} {j j' : ℕ} {hj : j < 4} {hj' : j' < 4} (hb : b = b') (hjj : j = j') :
    carryOf m c b j hj = carryOf m c b' j' hj' := by subst hb; subst hjj; rfl

theorem carryOf_first (b : Fin 16) (j : ℕ) (hj : j < 4) (h0 : j = 0) :
    carryOf m c b j hj = stepOf m c b ⟨j, hj⟩ Carry.init := by subst h0; rfl

theorem carryOf_next (b : Fin 16) (j p : ℕ) (hj : j < 4) (hp : p < 4) (h : j = p + 1) :
    carryOf m c b j hj = stepOf m c b ⟨j, hj⟩ (carryOf m c b p hp) := by subst h; rfl

/-- After point n the scratch holds the carry `s` and batch `b`'s query. -/
def Holds (n : ℕ) (h : n < cfg0.N) (b : Fin 16) (s : Carry) : Prop :=
  (outsAt0 m c n h).2.1 (ix2 0 0) = s.top
  ∧ (outsAt0 m c n h).2.2.1 (ix2 0 0) = s.den
  ∧ (∀ e : Fin 1024, (outsAt0 m c n h).2.2.2.1 (ix2 0 e) = s.num e)
  ∧ (∀ d : Fin 1024, (outsAt0 m c n h).2.2.2.2 (ix2 0 d) = qfold (aq m c) (aW m c) (ab m c) b d)

theorem Holds.of_eq {n : ℕ} {h : n < cfg0.N} {b b' : Fin 16} {s s' : Carry} (hb : b = b') (hs : s = s')
    (H : Holds m c n h b s) : Holds m c n h b' s' := by subst hb; subst hs; exact H

/-- The query row a batch's first tile stores. -/
theorem query_first (t : Fin cfg0.N) (d : Fin 1024) :
    k0_pay4 (F := Ideal) (iblk m c 0 t) (iblk m c 3 t) (iblk m c 4 t) (ix2 0 d) = qfold (aq m c) (aW m c) (ab m c) (bt t) d :=
  Step.query_eq (aq m c) (aW m c) (ab m c) (bt t) (iblk m c 0 t) (iblk m c 3 t) (iblk m c 4 t)
    (blk0 m c t) (blk3 m c t) (blk4 m c t) d

/-- A batch's first tile: the update from the initial carry. -/
theorem first (t : Fin cfg0.N) (h0 : t.val % 4 = 0) :
    Holds m c t.val t.isLt (bt t) (stepOf m c (bt t) (jt t) Carry.init) := by
  have h1 : ¬t.val % 4 = 3 := by omega
  unfold Holds
  rw [outsAt0_A m c t h0 h1]
  dsimp only
  refine ⟨?_, ?_, ?_, ?_⟩
  · rw [Pieces.first_top, pay2_eq]
    exact Step.top_eq' (aq m c) (ak m c) (av m c) (aW m c) (ab m c) (bt t) (jt t) Carry.init (iblk m c 1 t)
      (k0_pay4 (F := Ideal) (iblk m c 0 t) (iblk m c 3 t) (iblk m c 4 t)) (k0_pay5 (F := Ideal))
      (blk1 m c t) (query_first m c t) pay5_apply
  · rw [Pieces.first_den]
    exact Step.den_eq (aq m c) (ak m c) (av m c) (aW m c) (ab m c) (bt t) (jt t) Carry.init (iblk m c 1 t)
      (k0_pay4 (F := Ideal) (iblk m c 0 t) (iblk m c 3 t) (iblk m c 4 t)) (k0_pay5 (F := Ideal)) (k0_pay6 (F := Ideal))
      (blk1 m c t) (query_first m c t) pay5_apply pay6_apply
  · intro e
    rw [Pieces.first_num]
    exact Step.num_eq (aq m c) (ak m c) (av m c) (aW m c) (ab m c) (bt t) (jt t) Carry.init (iblk m c 1 t) (iblk m c 2 t)
      (k0_pay4 (F := Ideal) (iblk m c 0 t) (iblk m c 3 t) (iblk m c 4 t)) (k0_pay5 (F := Ideal)) (k0_pay7 (F := Ideal))
      (blk1 m c t) (blk2 m c t) (query_first m c t) pay5_apply pay7_apply e
  · intro d
    rw [Pieces.first_query]
    exact query_first m c t d

/-- A later tile: the update of what the point before left. -/
theorem later (t : Fin cfg0.N) (h0 : ¬t.val % 4 = 0) (s : Carry)
    (ih : Holds m c (t.val - 1) (Nat.lt_of_le_of_lt (Nat.sub_le _ _) t.isLt) (bt t) s) :
    Holds m c t.val t.isLt (bt t) (stepOf m c (bt t) (jt t) s) := by
  obtain ⟨im, il, ia, iq⟩ := ih
  unfold Holds
  by_cases h1 : t.val % 4 = 3
  · rw [outsAt0_C m c t h0 h1]
    dsimp only
    refine ⟨?_, ?_, ?_, ?_⟩
    · rw [Pieces.last_top, pay2_eq]
      exact Step.top_eq' (aq m c) (ak m c) (av m c) (aW m c) (ab m c) (bt t) (jt t) s (iblk m c 1 t) _ _
        (blk1 m c t) iq im
    · rw [Pieces.last_den]
      exact Step.den_eq (aq m c) (ak m c) (av m c) (aW m c) (ab m c) (bt t) (jt t) s (iblk m c 1 t) _ _ _
        (blk1 m c t) iq im il
    · intro e
      rw [Pieces.last_num]
      exact Step.num_eq (aq m c) (ak m c) (av m c) (aW m c) (ab m c) (bt t) (jt t) s (iblk m c 1 t) (iblk m c 2 t) _ _ _
        (blk1 m c t) (blk2 m c t) iq im ia e
    · exact iq
  · rw [outsAt0_B m c t h0 h1]
    dsimp only
    refine ⟨?_, ?_, ?_, ?_⟩
    · rw [Pieces.mid_top, pay2_eq]
      exact Step.top_eq' (aq m c) (ak m c) (av m c) (aW m c) (ab m c) (bt t) (jt t) s (iblk m c 1 t) _ _
        (blk1 m c t) iq im
    · rw [Pieces.mid_den]
      exact Step.den_eq (aq m c) (ak m c) (av m c) (aW m c) (ab m c) (bt t) (jt t) s (iblk m c 1 t) _ _ _
        (blk1 m c t) iq im il
    · intro e
      rw [Pieces.mid_num]
      exact Step.num_eq (aq m c) (ak m c) (av m c) (aW m c) (ab m c) (bt t) (jt t) s (iblk m c 1 t) (iblk m c 2 t) _ _ _
        (blk1 m c t) (blk2 m c t) iq im ia e
    · exact iq

/-- After every point the scratch holds the specification's carry of the point's batch after the point's tile. -/
theorem carried : ∀ (n : ℕ) (h : n < cfg0.N),
    Holds m c n h ⟨n / 4, batch_lt ⟨n, h⟩⟩ (carryOf m c ⟨n / 4, batch_lt ⟨n, h⟩⟩ (n % 4) (tile_lt ⟨n, h⟩))
  | 0, h => (first m c ⟨0, h⟩ rfl).of_eq m c rfl (carryOf_first m c _ _ _ rfl).symm
  | n + 1, h => by
    by_cases h0 : (n + 1) % 4 = 0
    · exact (first m c ⟨n + 1, h⟩ h0).of_eq m c rfl (carryOf_first m c _ _ _ h0).symm
    · have hb : (⟨n / 4, batch_lt ⟨n, Nat.lt_of_succ_lt h⟩⟩ : Fin 16) = ⟨(n + 1) / 4, batch_lt ⟨n + 1, h⟩⟩ :=
        Fin.ext (by show n / 4 = (n + 1) / 4; omega)
      have hp : n % 4 < 4 := Nat.mod_lt _ (by decide)
      have hj : (n + 1) % 4 = n % 4 + 1 := by omega
      have ih := (carried n (Nat.lt_of_succ_lt h)).of_eq m c hb (carryOf_congr m c (hj' := hp) hb rfl)
      exact (later m c ⟨n + 1, h⟩ h0 _ ih).of_eq m c rfl (carryOf_next m c _ _ _ _ hp hj).symm

/-- At a batch's last tile the output block holds the batch's result row. -/
theorem out_last (t : Fin cfg0.N) (h3 : t.val % 4 = 3) (e' : Fin 1024) :
    (outsAt0 m c t.val t.isLt).1 (ix3 0 0 e')
      = streamed (aq m c) (ak m c) (av m c) (aW m c) (ab m c) (aWv m c) (abv m c) (bt t) e' := by
  have h0 : ¬t.val % 4 = 0 := by omega
  have hN : t.val < 64 := lt_of_lt_of_eq t.isLt (show cfg0.N = 64 from N_0)
  have hpos : 0 < t.val := by omega
  have hlt : t.val - 1 < cfg0.N := Nat.lt_of_le_of_lt (Nat.sub_le _ _) t.isLt
  have hb : (⟨(t.val - 1) / 4, batch_lt ⟨t.val - 1, hlt⟩⟩ : Fin 16) = bt t :=
    Fin.ext (by show (t.val - 1) / 4 = t.val / 4; omega)
  obtain ⟨im, il, ia, iq⟩ := (carried m c (t.val - 1) hlt).of_eq m c hb (carryOf_congr m c (hj' := tile_lt ⟨t.val - 1, hlt⟩) hb rfl)
  rw [outsAt0_C m c t h0 h3]
  dsimp only
  rw [Pieces.last_out]
  refine (Step.out_eq (aWv m c) (abv m c)
    (stepOf m c (bt t) (jt t) (carryOf m c (bt t) ((t.val - 1) % 4) (tile_lt ⟨t.val - 1, hlt⟩))) _ _
    (Step.den_eq (aq m c) (ak m c) (av m c) (aW m c) (ab m c) (bt t) (jt t) _ (iblk m c 1 t) _ _ _ (blk1 m c t) iq im il)
    (Step.num_eq (aq m c) (ak m c) (av m c) (aW m c) (ab m c) (bt t) (jt t) _ (iblk m c 1 t) (iblk m c 2 t) _ _ _
      (blk1 m c t) (blk2 m c t) iq im ia)
    (iblk m c 5 t) (iblk m c 6 t) (blk5 m c t) (blk6 m c t) e').trans ?_
  have hc : stepOf m c (bt t) (jt t) (carryOf m c (bt t) ((t.val - 1) % 4) (tile_lt ⟨t.val - 1, hlt⟩))
      = carryOf m c (bt t) 3 (by decide) :=
    ((carryOf_next m c (bt t) (t.val % 4) ((t.val - 1) % 4) (tile_lt t) (tile_lt ⟨t.val - 1, hlt⟩) (by omega)).symm).trans
      (carryOf_congr m c rfl h3)
  rw [hc]
  rfl

end Cert.KernelIdeal.Carried

end
-- ==== Proof.KernelValue.lean ====
/-
  The kernel program's result. The output window's block at a batch's last key tile is written back to row (b, 0, ·)
  of the region's [16, 1, 1024] result array, and these sixteen blocks cover the array, so the array after the
  region holds, at (b, 0, e), the specification's streamed result of batch b at column e. The program then reshapes
  it to [16, 1024]: entry (b, e) reads entry (b, 0, e), the same row-major position.
-/
import proofs.«410998_j13451837571855_3_alg».proof.Proof.Gen.KernelIdeal.Frame
import proofs.«410998_j13451837571855_3_alg».proof.Proof.Carried
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.KValue

open Cert.KernelIdeal Cert.KernelIdeal.Gen Cert.KernelIdeal.Blocks Cert.KernelIdeal.Carried Cert.AttnSpec

variable (m : (ℓ : Loc nD τ sig) → Buf (Elt Ideal) ℓ) (ρ : Dev nD → PrngReg)

/-- The output window's block index at a point: (batch, 0, 0). -/
theorem idx7 : ∀ t : Fin cfg0.N, win0_7.index t (0 : Fin 3) = t.val / 4 ∧ win0_7.index t 1 = 0 ∧ win0_7.index t 2 = 0 :=
  (by decide +kernel : ∀ t : Fin grid0.N, _)

/-- The region's result array: at (b, 0, e) batch b's streamed result at column e. -/
abbrev region (c : Dev nD) : Buf (Elt Ideal) ((c : Thread nD τ).loc main_v4) := fun i =>
  streamed (aq m c) (ak m c) (av m c) (aW m c) (ab m c) (aWv m c) (abv m c) ⟨(i 0).val, (i 0).isLt⟩ ⟨(i 2).val, (i 2).isLt⟩

/-- What a batch's last tile writes back is the batch's row of that array. -/
theorem flushed_eq (c : Dev nD) (t : Fin cfg0.N) (hf : (cfg0.win 7).flush t = true) :
    (dats m 0 c).flushed 7 t = ((cfg0.win 7).blk t).view.read (Elt Ideal) (region m c) := by
  have h3 : t.val % 4 = 3 := (flush0_7 t).mp hf
  obtain ⟨e0, e1, e2⟩ := idx7 t
  show (cfg0.win 7).cut (grid0.coords t) ((dats m 0 c).after 7 t) = _
  rw [after0_7]
  funext y
  obtain ⟨e, rfl⟩ : ∃ e : Fin 1024, y = ix3 0 0 e :=
    ⟨y 2, funext fun a => match a with
      | ⟨0, h0⟩ => Fin.ext (by have h : (y ⟨0, h0⟩).val < 1 := (y ⟨0, h0⟩).isLt; show (y ⟨0, h0⟩).val = 0; omega)
      | ⟨1, h1⟩ => Fin.ext (by have h : (y ⟨1, h1⟩).val < 1 := (y ⟨1, h1⟩).isLt; show (y ⟨1, h1⟩).val = 0; omega)
      | ⟨2, _⟩ => rfl⟩
  show (outsAt0 m c t.val t.isLt).1 (ix3 0 0 e) = region m c (((cfg0.win 7).blk t).view.emb (ix3 0 0 e))
  rw [out_last m c t h3 e]
  have hemb : ((cfg0.win 7).blk t).view.emb (ix3 0 0 e) = ix3 (bt t) 0 e := by
    funext a
    apply Fin.ext
    match a with
    | ⟨0, _⟩ => show win0_7.index t (0 : Fin 3) * 1 + 1 * 0 = t.val / 4; omega
    | ⟨1, _⟩ => show win0_7.index t (1 : Fin 3) * 1 + 1 * 0 = 0; omega
    | ⟨2, _⟩ => show win0_7.index t (2 : Fin 3) * 1024 + 1 * e.val = e.val; omega
  rw [hemb]
  rfl

/-- An index of the array is in a point's block iff each coordinate is in the block's range on its axis. -/
theorem mem_blk (t : Fin cfg0.N) (i : S16x1x1024.Idx) :
    i ∈ ((cfg0.win 7).blk t).view.set ↔ ∀ a : Fin 3, win0_7.index t a * S1x1x1024.size a ≤ (i a).val
      ∧ (i a).val < win0_7.index t a * S1x1x1024.size a + S1x1x1024.size a := by
  show i ∈ ((View.whole main_v4).slice (win0_7.rect t)).set ↔ _
  rw [View.set_slice_whole, Rect.mem_set_unit]
  exact Iff.rfl

/-- Row b of the array is written back at batch b's last tile. -/
theorem cover (i : S16x1x1024.Idx) :
    ∃ t : Fin cfg0.N, (cfg0.win 7).flush t = true ∧ i ∈ ((cfg0.win 7).blk t).view.set := by
  have hi0 : (i 0).val < 16 := (i 0).isLt
  have hi1 : (i 1).val < 1 := (i 1).isLt
  have hi2 : (i 2).val < 1024 := (i 2).isLt
  have hN : cfg0.N = 64 := N_0
  have hlt : 4 * (i 0).val + 3 < cfg0.N := by omega
  obtain ⟨e0, e1, e2⟩ := idx7 ⟨4 * (i 0).val + 3, hlt⟩
  have e0' : win0_7.index ⟨4 * (i 0).val + 3, hlt⟩ (0 : Fin 3) = (4 * (i 0).val + 3) / 4 := e0
  refine ⟨⟨4 * (i 0).val + 3, hlt⟩, (flush0_7 _).mpr (by show (4 * (i 0).val + 3) % 4 = 3; omega), ?_⟩
  rw [mem_blk]
  intro a
  match a with
  | ⟨0, _⟩ =>
    show win0_7.index ⟨4 * (i 0).val + 3, hlt⟩ (0 : Fin 3) * 1 ≤ (i 0).val
      ∧ (i 0).val < win0_7.index ⟨4 * (i 0).val + 3, hlt⟩ (0 : Fin 3) * 1 + 1
    omega
  | ⟨1, _⟩ =>
    show win0_7.index ⟨4 * (i 0).val + 3, hlt⟩ (1 : Fin 3) * 1 ≤ (i 1).val
      ∧ (i 1).val < win0_7.index ⟨4 * (i 0).val + 3, hlt⟩ (1 : Fin 3) * 1 + 1
    omega
  | ⟨2, _⟩ =>
    show win0_7.index ⟨4 * (i 0).val + 3, hlt⟩ (2 : Fin 3) * 1024 ≤ (i 2).val
      ∧ (i 2).val < win0_7.index ⟨4 * (i 0).val + 3, hlt⟩ (2 : Fin 3) * 1024 + 1024
    omega

/-- So the region's result array ends at `region`. -/
theorem final (c : Dev nD) : (dats m 0 c).arrAt 7 cfg0.N = region m c :=
  (dats m 0 c).arrAt_eq_of_cover 7 (region m c) (flushed_eq m c) cover

/-- The program's result: at (b, e) batch b's streamed result at column e. -/
abbrev result (c : Dev nD) : Buf (Elt Ideal) ((c : Thread nD τ).loc main_v5) := fun i =>
  streamed (aq m c) (ak m c) (av m c) (aW m c) (ab m c) (aWv m c) (abv m c) ⟨(i 0).val, (i 0).isLt⟩ ⟨(i 1).val, (i 1).isLt⟩

/-- A [16, 1, 1024] array reshaped to [16, 1024] reads (b, e) at (b, 0, e): the same row-major position. -/
theorem reshape_row (y : S16x1x1024.Idx → EReal) (i : S16x1024.Idx) :
    shapeCast S16x1024 y shapeCasts_S16x1x1024_S16x1024 i = y (ix3 ⟨(i 0).val, (i 0).isLt⟩ 0 ⟨(i 1).val, (i 1).isLt⟩) :=
  shapeCast_apply y shapeCasts_S16x1x1024_S16x1024 i (ix3 ⟨(i 0).val, (i 0).isLt⟩ 0 ⟨(i 1).val, (i 1).isLt⟩)
    (by rewrite [Shape.rowMajor_val_three, Shape.rowMajor_val_two]
        have h0 : (i 0).val < 16 := (i 0).isLt
        have h1 : (i 1).val < 1024 := (i 1).isLt
        show ((i 0).val * 1 + 0) * 1024 + (i 1).val = (i 0).val * 1024 + (i 1).val
        omega)

/-- The reshape after the region reads (b, e) at (b, 0, e). -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  funext i
  show shapeCast S16x1024 (Pipeline.withArrays (cfgs 0).spec c (V0 m c) (fun w => (dats m 0 c).arrAt w (cfgs 0).N)
    (Proc.devRef .tc main_v4)) shapeCasts_S16x1x1024_S16x1024 i = _
  rw [show Pipeline.withArrays (cfgs 0).spec c (V0 m c) (fun w => (dats m 0 c).arrAt w (cfgs 0).N)
      (Proc.devRef .tc main_v4) = region m c
    from (Pipeline.withArrays_arr spec0 launch0.win.arr_inj c _ _ 7).trans (final m c)]
  exact reshape_row (region m c) i

/-- The run, read: the result buffer at `result`, the seven argument arrays unchanged. An argument the pipeline
    stages ends at its array after the region, which for an input is its contents at the region's entry; an
    argument only host operations read is written by none of them. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.RefValue.lean ====
/- The reference's run read at an index: its result is the two-pass attention of the argument arrays. -/
import proofs.«410998_j13451837571855_3_alg».proof.Defs
import proofs.«410998_j13451837571855_3_alg».proof.Proof.Gen.ReferenceIdeal.Run
import proofs.«410998_j13451837571855_3_alg».proof.Proof.Gen.ReferenceIdeal.Read
import proofs.«410998_j13451837571855_3_alg».proof.Proof.Spec
import proofs.«410998_j13451837571855_3_alg».proof.Proof.LibStreamSoftmax
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.AttnSpec
open Idealize.ShloMosaic Idealize.ShloMosaic.ValueIdx Idealize.SL.Sem

/-! ## The composed index functions of the per-operation reading, at coordinates -/

theorem lidx0 (b : Fin 16) (a : Fin 256) (d : Fin 1024) : lidx_main_v0 (ix3 b 0 a) d = ix3 b 0 d :=
  funext fun c => Fin.ext (by match c with | ⟨0, _⟩ => rfl | ⟨1, _⟩ => rfl | ⟨2, _⟩ => rfl)
theorem ridx0 (b : Fin 16) (a : Fin 256) (d : Fin 1024) : ridx_main_v0 (ix3 b 0 a) d = ix2 d a :=
  funext fun c => Fin.ext (by match c with | ⟨0, _⟩ => rfl | ⟨1, _⟩ => rfl)
theorem idx12 (b : Fin 16) (a : Fin 256) : idx_main_v1 (idx_main_v2 (ix3 b 0 a)) = ix1 a :=
  funext fun c => Fin.ext (by match c with | ⟨0, _⟩ => rfl)

theorem lidx4 (b : Fin 16) (k : Fin 4096) (a : Fin 256) (d : Fin 1024) : lidx_main_v4 (ix3 b k a) d = ix3 b k d :=
  funext fun c => Fin.ext (by match c with | ⟨0, _⟩ => rfl | ⟨1, _⟩ => rfl | ⟨2, _⟩ => rfl)
theorem ridx4 (b : Fin 16) (k : Fin 4096) (a : Fin 256) (d : Fin 1024) : ridx_main_v4 (ix3 b k a) d = ix2 d a :=
  funext fun c => Fin.ext (by match c with | ⟨0, _⟩ => rfl | ⟨1, _⟩ => rfl)
theorem idx56 (b : Fin 16) (k : Fin 4096) (a : Fin 256) : idx_main_v5 (idx_main_v6 (ix3 b k a)) = ix1 a :=
  funext fun c => Fin.ext (by match c with | ⟨0, _⟩ => rfl)

theorem lidx8 (b : Fin 16) (k : Fin 4096) (e d : Fin 1024) : lidx_main_v8 (ix3 b k e) d = ix3 b k d :=
  funext fun c => Fin.ext (by match c with | ⟨0, _⟩ => rfl | ⟨1, _⟩ => rfl | ⟨2, _⟩ => rfl)
theorem ridx8 (b : Fin 16) (k : Fin 4096) (e d : Fin 1024) : ridx_main_v8 (ix3 b k e) d = ix2 d e :=
  funext fun c => Fin.ext (by match c with | ⟨0, _⟩ => rfl | ⟨1, _⟩ => rfl)
theorem idx910 (b : Fin 16) (k : Fin 4096) (e : Fin 1024) : idx_main_v9 (idx_main_v10 (ix3 b k e)) = ix1 e :=
  funext fun c => Fin.ext (by match c with | ⟨0, _⟩ => rfl)

theorem lidx12 (b : Fin 16) (k : Fin 4096) (a : Fin 256) : lidx_main_v12 (ix3 b 0 k) a = ix3 b 0 a :=
  funext fun c => Fin.ext (by match c with | ⟨0, _⟩ => rfl | ⟨1, _⟩ => rfl | ⟨2, _⟩ => rfl)
theorem ridx12 (b : Fin 16) (k : Fin 4096) (a : Fin 256) : ridx_main_v12 (ix3 b 0 k) a = ix3 b k a :=
  funext fun c => Fin.ext (by match c with | ⟨0, _⟩ => rfl | ⟨1, _⟩ => rfl | ⟨2, _⟩ => rfl)

theorem idx1920 (b : Fin 16) (k : Fin 4096) : idx_main_v19 (idx_main_v20 (ix3 b 0 k)) = ix2 b 0 :=
  funext fun c => Fin.ext (by match c with | ⟨0, _⟩ => rfl | ⟨1, _⟩ => rfl)
theorem idx23 (b : Fin 16) (k : Fin 4096) : idx_main_v23 (ix2 b 0) k = ix3 b 0 k :=
  funext fun c => Fin.ext (by match c with | ⟨0, _⟩ => rfl | ⟨1, _⟩ => rfl | ⟨2, _⟩ => rfl)
theorem idx2425 (b : Fin 16) (k : Fin 4096) : idx_main_v24 (idx_main_v25 (ix3 b 0 k)) = ix2 b 0 :=
  funext fun c => Fin.ext (by match c with | ⟨0, _⟩ => rfl | ⟨1, _⟩ => rfl)

theorem lidx27 (b : Fin 16) (e : Fin 1024) (k : Fin 4096) : lidx_main_v27 (ix3 b 0 e) k = ix3 b 0 k :=
  funext fun c => Fin.ext (by match c with | ⟨0, _⟩ => rfl | ⟨1, _⟩ => rfl | ⟨2, _⟩ => rfl)
theorem ridx27 (b : Fin 16) (e : Fin 1024) (k : Fin 4096) : ridx_main_v27 (ix3 b 0 e) k = ix3 b k e :=
  funext fun c => Fin.ext (by match c with | ⟨0, _⟩ => rfl | ⟨1, _⟩ => rfl | ⟨2, _⟩ => rfl)
/-- The reshape [16,1,1024] → [16,1024] reads (b, e) at (b, 0, e): (1024·b + e) / 1024 = b and (1024·b + e) % 1024 = e. -/
theorem idx28 (b : Fin 16) (e : Fin 1024) : idx_main_v28 (ix2 b e) = ix3 b 0 e :=
  funext fun c => Fin.ext (by
    have hb := b.isLt
    have he := e.isLt
    match c with
    | ⟨0, _⟩ => show (b.val * 1024 + e.val) / 1024 = b.val; omega
    | ⟨1, _⟩ => rfl
    | ⟨2, _⟩ => show (b.val * 1024 + e.val) % 1024 = e.val; omega)

/-! ## The stages, over plain arrays -/

section stages

variable (x0 : (⟨S16x1x1024, .f32⟩ : BufTy).Contents (Elt Ideal)) (x1 x2 : (⟨S16x4096x1024, .f32⟩ : BufTy).Contents (Elt Ideal))
  (x3 : (⟨S1024x256, .f32⟩ : BufTy).Contents (Elt Ideal)) (x4 : (⟨S256, .f32⟩ : BufTy).Contents (Elt Ideal))
  (x5 : (⟨S1024x1024, .f32⟩ : BufTy).Contents (Elt Ideal)) (x6 : (⟨S1024, .f32⟩ : BufTy).Contents (Elt Ideal))

/-- The projected query. -/
theorem v3_at (b : Fin 16) (a : Fin 256) :
    val_main_v3 (F := Ideal) x0 x3 x4 (ix3 b 0 a) = qproj (un3 x0) (arr2 x3) (arr1 x4) b a := by
  rw [val_main_v3_apply, val_main_v0_apply, val_main_v2_apply, val_main_v1_apply]
  simp only [lidx0, ridx0, idx12, Ideal.addf_def]
  rfl

/-- The projected keys. -/
theorem v7_at (b : Fin 16) (k : Fin 4096) (a : Fin 256) :
    val_main_v7 (F := Ideal) x1 x3 x4 (ix3 b k a) = kproj (arr3 x1) (arr2 x3) (arr1 x4) b k a := by
  rw [val_main_v7_apply, val_main_v4_apply, val_main_v6_apply, val_main_v5_apply]
  simp only [lidx4, ridx4, idx56, Ideal.addf_def]
  rfl

/-- The projected values. -/
theorem v11_at (b : Fin 16) (k : Fin 4096) (e : Fin 1024) :
    val_main_v11 (F := Ideal) x2 x5 x6 (ix3 b k e) = vproj (arr3 x2) (arr2 x5) (arr1 x6) b k e := by
  rw [val_main_v11_apply, val_main_v8_apply, val_main_v10_apply, val_main_v9_apply]
  simp only [lidx8, ridx8, idx910, Ideal.addf_def]
  rfl

/-- The scores: the projected query's product with a projected key row over the square root of 256. -/
theorem v15_at (b : Fin 16) (k : Fin 4096) :
    val_main_v15 (F := Ideal) x0 x1 x3 x4 (ix3 b 0 k) = scoreP (un3 x0) (arr3 x1) (arr2 x3) (arr1 x4) b k := by
  rw [val_main_v15_apply, val_main_v12_apply, val_main_v14_apply, val_main_v13_apply, val_main_cst_apply]
  simp only [lidx12, ridx12, v3_at, v7_at, Ideal.hostDivf_def, Ideal.hostUnary_sqrt_def, Ideal.ofBits_def]
  rfl

/-- The reduced index (b, 0) with key row k put back on the dropped axis is (b, 0, k). -/
theorem lift_at (h : S16x1x4096.Reduces [2] S16x1) (b : Fin 16) (k : Fin (S16x1x4096.size 2)) :
    h.lift (ix2 b 0) k = ix3 b 0 (⟨k.val, k.isLt⟩ : Fin 4096) := by
  funext c; apply Fin.ext
  fin_cases c <;> rfl

/-- The maximum-reduce over the key rows, from −∞. -/
theorem v16_at (b : Fin 16) :
    val_main_v16 (F := Ideal) x0 x1 x3 x4 (ix2 b 0)
      = (Finset.univ : Finset (Fin 4096)).fold max ⊥ (fun kk => scoreP (un3 x0) (arr3 x1) (arr2 x3) (arr1 x4) b kk) := by
  have h : S16x1x4096.Reduces [2] S16x1 := by decide
  unfold val_main_v16
  rw [Host.reduce_eq_fold_single FloatOps.maximumf _ _ Facts₀.reducesTo_S16x1x4096_S16x1_d2 h Facts₀.h_S_]
  have hf : (val_main_v15 (F := Ideal) x0 x1 x3 x4 ∘ h.lift (ix2 b 0))
      = fun kk : Fin 4096 => scoreP (un3 x0) (arr3 x1) (arr2 x3) (arr1 x4) b kk :=
    funext fun kk => by
      show val_main_v15 (F := Ideal) x0 x1 x3 x4 (h.lift (ix2 b 0) kk) = _
      rw [lift_at h b kk]
      exact v15_at x0 x1 x3 x4 b _
  rw [hf, val_main_cst_0_apply, Ideal.ofBits_def, Cert.Attn.ofBits_neg_inf]
  rfl

/-- The row maximum. -/
theorem v18_at (b : Fin 16) :
    val_main_v18 (F := Ideal) x0 x1 x3 x4 (ix2 b 0) = topP (un3 x0) (arr3 x1) (arr2 x3) (arr1 x4) b := by
  rw [val_main_v18_apply, val_main_v17_apply, val_main_cst_1_apply, v16_at, Ideal.maximumf_def, Ideal.ofBits_def,
    Cert.Attn.ofBits_neg_inf]
  rfl

/-- The weights before normalising. -/
theorem v22_at (b : Fin 16) (k : Fin 4096) :
    val_main_v22 (F := Ideal) x0 x1 x3 x4 (ix3 b 0 k)
      = Ideal.exp (scoreP (un3 x0) (arr3 x1) (arr2 x3) (arr1 x4) b k - topP (un3 x0) (arr3 x1) (arr2 x3) (arr1 x4) b) := by
  rw [val_main_v22_apply, val_main_v21_apply, val_main_v20_apply, val_main_v19_apply, idx1920, v15_at, v18_at,
    Ideal.hostUnary_exp_def, Ideal.subf_def]

/-- Their sum, added to the initial 0. -/
theorem v23_at (b : Fin 16) :
    val_main_v23 (F := Ideal) x0 x1 x3 x4 (ix2 b 0)
      = (0 : EReal) + ∑ kk : Fin 4096,
          Ideal.exp (scoreP (un3 x0) (arr3 x1) (arr2 x3) (arr1 x4) b kk - topP (un3 x0) (arr3 x1) (arr2 x3) (arr1 x4) b) := by
  rw [val_main_v23_apply, val_main_cst_2_apply, Ideal.ofBits_def, Ideal.ofBits_zero_f32]
  simp only [idx23, v22_at]

/-- The normalised weights. -/
theorem v26_at (b : Fin 16) (k : Fin 4096) :
    val_main_v26 (F := Ideal) x0 x1 x3 x4 (ix3 b 0 k)
      = Ideal.div (Ideal.exp (scoreP (un3 x0) (arr3 x1) (arr2 x3) (arr1 x4) b k - topP (un3 x0) (arr3 x1) (arr2 x3) (arr1 x4) b))
          ((0 : EReal) + ∑ kk : Fin 4096,
            Ideal.exp (scoreP (un3 x0) (arr3 x1) (arr2 x3) (arr1 x4) b kk - topP (un3 x0) (arr3 x1) (arr2 x3) (arr1 x4) b)) := by
  rw [val_main_v26_apply, val_main_v25_apply, val_main_v24_apply, idx2425, v22_at, v23_at, Ideal.hostDivf_def]

/-- The weighted sum of the projected value rows. -/
theorem v27_at (b : Fin 16) (e : Fin 1024) :
    val_main_v27 (F := Ideal) x0 x1 x2 x3 x4 x5 x6 (ix3 b 0 e)
      = twoPass (un3 x0) (arr3 x1) (arr3 x2) (arr2 x3) (arr1 x4) (arr2 x5) (arr1 x6) b e := by
  rw [val_main_v27_apply]
  simp only [lidx27, ridx27, v26_at, v11_at]
  rfl

/-- The last stage at (b, e). -/
theorem v28_at (b : Fin 16) (e : Fin 1024) :
    val_main_v28 (F := Ideal) x0 x1 x2 x3 x4 x5 x6 (ix2 b e)
      = twoPass (un3 x0) (arr3 x1) (arr3 x2) (arr2 x3) (arr1 x4) (arr2 x5) (arr1 x6) b e := by
  rw [val_main_v28_apply, idx28, v27_at]

end stages

/-- The reference's result is the two-pass attention of its seven argument arrays. -/
theorem res_eq (m : (ℓ : Loc nD τ sig) → Buf (Elt Ideal) ℓ) (c : Dev nD) :
    Cert.ReferenceIdeal.Value.res_main_v28 (F := Ideal) m c
      = fun i => twoPass (un3 (m ((c.tc : Thread nD τ).loc main_arg0))) (arr3 (m ((c.tc : Thread nD τ).loc main_arg1))) (arr3 (m ((c.tc : Thread nD τ).loc main_arg2))) (arr2 (m ((c.tc : Thread nD τ).loc main_arg3))) (arr1 (m ((c.tc : Thread nD τ).loc main_arg4))) (arr2 (m ((c.tc : Thread nD τ).loc main_arg5))) (arr1 (m ((c.tc : Thread nD τ).loc main_arg6))) (i 0) (i 1) := by
  funext i
  obtain ⟨b, e, rfl⟩ : ∃ (b : Fin 16) (e : Fin 1024), i = ix2 b e := ⟨i 0, i 1, eq_ix2 i⟩
  rw [val_main_v28_eq]
  exact v28_at _ _ _ _ _ _ _ b e

end Cert.ReferenceIdeal.RefValue
end
-- ==== Proof.Finite.lean ====
/-
  Finiteness of the inputs: when the finiteness predicate answers 1, every entry of every input array is a real number.
-/
import proofs.«410998_j13451837571855_3_alg».proof.Pre_finite_inputs
import proofs.«410998_j13451837571855_3_alg».proof.Proof.Spec
import Idealize.ShloMosaic.Lib.ReduceAll
import Idealize.ShloMosaic.PureOps.Ideal.Laws
import Mathlib.Data.EReal.Basic

noncomputable section

namespace Cert.Pre_finite_inputs.Finite

open Idealize.ShloMosaic Idealize.ShloMosaic.ValueIdx
open Cert.Pre_finite_inputs Cert.AttnSpec

/-- The result shape of a reduction over all axes has one index. -/
instance : Subsingleton S_.Idx := ⟨fun a b => funext fun d => d.elim0⟩

/-- The f32 word 0x7F800000 is +∞. -/
theorem inf_word : Ideal.ofBits .f32 0x7F800000#32 = (⊤ : EReal) := by simp [Ideal.ofBits, Ideal.ieee]

/-- An extended real whose absolute value max x (−x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One array: if the comparison |x i| < +∞ answers 1 at every index, every entry is a real number. -/
theorem real_of_cmp {s : Shape} (x : FVec Ideal s .f32) (bc : S_.BroadcastsInDim s (![] : Fin 0 → Fin s.rank))
    (h : ∀ i, cmpf .olt (Host.absf x) (broadcastInDim s ![] bc (constant (F := Ideal) S_ .f32 0x7F800000#32)) i = 1#1) :
    ∃ f : s.Idx → ℝ, ∀ i, x i = (f i : EReal) := by
  have hp : ∀ i, ∃ r : ℝ, x i = (r : EReal) := fun i => by
    have hi := h i
    simp only [cmpf, Host.absf, broadcastInDim, constant, Ideal.hostAbsf_def, Ideal.cmpf_def, Ideal.absf_def,
      Ideal.ofBits_def, inf_word, Ideal.cmp] at hi
    have hlt : max (x i) (-x i) < ⊤ := by
      by_contra hn
      rw [decide_eq_false hn] at hi
      exact absurd hi (by decide)
    exact real_of_abs_lt_top _ hlt
  exact ⟨fun i => Classical.choose (hp i), fun i => Classical.choose_spec (hp i)⟩

/-- When the finiteness predicate answers 1, each of the seven input arrays is an array of real numbers. -/
theorem real_of_pre [Cert.Pre_finite_inputs.Facts] (x0 : FVec Ideal S16x1x1024 .f32) (x1 x2 : FVec Ideal S16x4096x1024 .f32)
    (x3 : FVec Ideal S1024x256 .f32) (x4 : FVec Ideal S256 .f32) (x5 : FVec Ideal S1024x1024 .f32) (x6 : FVec Ideal S1024 .f32)
    (h : Cert.Pre_finite_inputs.fn (F := Ideal) x0 x1 x2 x3 x4 x5 x6 = fun _ => 1#1) :
    ∃ (q : Fin 16 → Fin 1024 → ℝ) (k v : Fin 16 → Fin 4096 → Fin 1024 → ℝ) (W : Fin 1024 → Fin 256 → ℝ) (bq : Fin 256 → ℝ)
      (Wv : Fin 1024 → Fin 1024 → ℝ) (bv : Fin 1024 → ℝ),
      un3 x0 = up2 q ∧ arr3 x1 = up3 k ∧ arr3 x2 = up3 v ∧ arr2 x3 = up2 W ∧ arr1 x4 = up1 bq ∧ arr2 x5 = up2 Wv ∧ arr1 x6 = up1 bv := by
  have h0 := congrFun h ix0
  dsimp only [fn, fn_part1] at h0
  simp only [andi, IntOp.andi_eq_one] at h0
  obtain ⟨⟨⟨⟨⟨⟨h0, h1⟩, h2⟩, h3⟩, h4⟩, h5⟩, h6⟩ := h0
  obtain ⟨f0, e0⟩ := real_of_cmp x0 _ (Host.reduce_andi_all _ _ _ _ ix0 h0)
  obtain ⟨f1, e1⟩ := real_of_cmp x1 _ (Host.reduce_andi_all _ _ _ _ ix0 h1)
  obtain ⟨f2, e2⟩ := real_of_cmp x2 _ (Host.reduce_andi_all _ _ _ _ ix0 h2)
  obtain ⟨f3, e3⟩ := real_of_cmp x3 _ (Host.reduce_andi_all _ _ _ _ ix0 h3)
  obtain ⟨f4, e4⟩ := real_of_cmp x4 _ (Host.reduce_andi_all _ _ _ _ ix0 h4)
  obtain ⟨f5, e5⟩ := real_of_cmp x5 _ (Host.reduce_andi_all _ _ _ _ ix0 h5)
  obtain ⟨f6, e6⟩ := real_of_cmp x6 _ (Host.reduce_andi_all _ _ _ _ ix0 h6)
  refine ⟨fun b d => f0 (ix3 b 0 d), fun a b c => f1 (ix3 a b c), fun a b c => f2 (ix3 a b c), fun a b => f3 (ix2 a b),
    fun a => f4 (ix1 a), fun a b => f5 (ix2 a b), fun a => f6 (ix1 a), ?_, ?_, ?_, ?_, ?_, ?_, ?_⟩
  · funext b d; exact e0 (ix3 b 0 d)
  · funext a b c; exact e1 (ix3 a b c)
  · funext a b c; exact e2 (ix3 a b c)
  · funext a b; exact e3 (ix2 a b)
  · funext a; exact e4 (ix1 a)
  · funext a b; exact e5 (ix2 a b)
  · funext a; exact e6 (ix1 a)

end Cert.Pre_finite_inputs.Finite

end
-- ==== Proof.StreamClosed.lean ====
/-
  The streamed form of single-query attention equals the closed form when every input entry is real.

  With real data the projected query, the folded query and every score are (coercions of) reals; the scale word
  denotes 1/16. After tiles 0 … j the carry is (μ, exp(−μ)·Z_j, exp(−μ)·N_j) for some real μ, where Z_j is the sum
  of exp(score) over the rows of those tiles and N_j the same sum weighted by the raw value rows. The last
  quotient cancels exp(−μ); the four tiles' rows are all 4096 rows; what remains is the closed form.
-/
import proofs.«410998_j13451837571855_3_alg».proof.Proof.Spec
import proofs.«410998_j13451837571855_3_alg».proof.Proof.LibStreamSoftmax
import Mathlib.Algebra.BigOperators.Fin
import Mathlib.Logic.Equiv.Fin.Basic

noncomputable section

namespace Cert.AttnSpec

open Idealize.ShloMosaic Cert.Attn

/-! ## Real data gives real scores -/

/-- The scale word is 2⁻⁴. -/
theorem scale_eq : scale = ((1 / 16 : ℝ) : EReal) := by
  unfold scale
  simp [Ideal.ofBits, Ideal.ieee, -EReal.coe_mul]
  norm_num

section real

variable (q : Fin 16 → Fin 1024 → ℝ) (k v : Fin 16 → Fin 4096 → Fin 1024 → ℝ)
  (W : Fin 1024 → Fin 256 → ℝ) (bq : Fin 256 → ℝ) (Wv : Fin 1024 → Fin 1024 → ℝ) (bv : Fin 1024 → ℝ)

theorem qproj_coe (b : Fin 16) (a : Fin 256) :
    qproj (up2 q) (up2 W) (up1 bq) b a = ((qprojR q W bq b a : ℝ) : EReal) := by
  unfold qproj qprojR up2 up1
  rw [dot_coe, ← EReal.coe_add]

theorem qfold_coe (b : Fin 16) (d : Fin 1024) :
    qfold (up2 q) (up2 W) (up1 bq) b d = ((qfoldR q W bq b d : ℝ) : EReal) := by
  unfold qfold qfoldR
  simp only [qproj_coe]
  unfold up2
  rw [scale_eq, dot_coe, ← EReal.coe_mul]

theorem score_coe (b : Fin 16) (kk : Fin 4096) :
    score (up2 q) (up3 k) (up2 W) (up1 bq) b kk = ((scoreR q k W bq b kk : ℝ) : EReal) := by
  unfold score scoreR
  simp only [qfold_coe]
  unfold up3
  rw [dot_coe]

/-! ## The sums a tile adds, and the sums so far -/

/-- A tile's sum of weights. -/
def tileZ (b : Fin 16) (j : Fin 4) : ℝ := ∑ r : Fin 1024, Real.exp (scoreR q k W bq b (rowOf j r))

/-- A tile's weighted sum of a column of raw value rows. -/
def tileN (b : Fin 16) (j : Fin 4) (e : Fin 1024) : ℝ :=
  ∑ r : Fin 1024, Real.exp (scoreR q k W bq b (rowOf j r)) * v b (rowOf j r) e

/-- The sum of weights over tiles 0 … j. -/
def denAt (b : Fin 16) : (j : ℕ) → j < 4 → ℝ
  | 0, h => tileZ q k W bq b ⟨0, h⟩
  | j + 1, h => denAt b j (Nat.lt_of_succ_lt h) + tileZ q k W bq b ⟨j + 1, h⟩

/-- The weighted sum of a column over tiles 0 … j. -/
def numAt (b : Fin 16) : (j : ℕ) → j < 4 → Fin 1024 → ℝ
  | 0, h => fun e => tileN q k v W bq b ⟨0, h⟩ e
  | j + 1, h => fun e => numAt b j (Nat.lt_of_succ_lt h) e + tileN q k v W bq b ⟨j + 1, h⟩ e

/-! ## One tile -/

/-- The first tile, from the initial carry. -/
theorem tileStep_init (b : Fin 16) (j : Fin 4) :
    ∃ μ' : ℝ, tileStep (up2 q) (up3 k) (up3 v) (up2 W) (up1 bq) b j Carry.init
      = ⟨(μ' : EReal), ((Real.exp (-μ') * tileZ q k W bq b j : ℝ) : EReal),
          fun e => ((Real.exp (-μ') * tileN q k v W bq b j e : ℝ) : EReal)⟩ := by
  obtain ⟨μ', hμ'⟩ := max_real_first (fun r : Fin 1024 => scoreR q k W bq b (rowOf j r))
  refine ⟨μ', ?_⟩
  simp only [tileStep, Carry.init, score_coe, hμ', mul_zero, zero_add]
  refine congrArg₂ _ ?_ ?_
  · exact tile_den μ' (fun r : Fin 1024 => scoreR q k W bq b (rowOf j r))
  · funext e
    exact tile_num μ' (fun r : Fin 1024 => scoreR q k W bq b (rowOf j r)) (fun r => v b (rowOf j r) e)

/-- A later tile, from a carry of the invariant's shape. -/
theorem tileStep_real (b : Fin 16) (j : Fin 4) (μ Z : ℝ) (N : Fin 1024 → ℝ) :
    ∃ μ' : ℝ, tileStep (up2 q) (up3 k) (up3 v) (up2 W) (up1 bq) b j
        ⟨(μ : EReal), ((Real.exp (-μ) * Z : ℝ) : EReal), fun e => ((Real.exp (-μ) * N e : ℝ) : EReal)⟩
      = ⟨(μ' : EReal), ((Real.exp (-μ') * (Z + tileZ q k W bq b j) : ℝ) : EReal),
          fun e => ((Real.exp (-μ') * (N e + tileN q k v W bq b j e) : ℝ) : EReal)⟩ := by
  obtain ⟨μ', hμ'⟩ := max_real μ (fun r : Fin 1024 => scoreR q k W bq b (rowOf j r))
  refine ⟨μ', ?_⟩
  simp only [tileStep, score_coe, hμ', rescale]
  refine congrArg₂ _ ?_ ?_
  · rw [tile_den μ' (fun r : Fin 1024 => scoreR q k W bq b (rowOf j r)), carry_add]
    rfl
  · funext e
    have h := tile_num μ' (fun r : Fin 1024 => scoreR q k W bq b (rowOf j r)) (fun r => v b (rowOf j r) e)
    unfold up3
    rw [h, carry_add]
    rfl

/-! ## The invariant -/

/-- After tiles 0 … j the carry is (μ, exp(−μ)·Z_j, exp(−μ)·N_j) for some real μ. -/
theorem carryAt_real (b : Fin 16) : ∀ (j : ℕ) (h : j < 4), ∃ μ : ℝ,
    carryAt (up2 q) (up3 k) (up3 v) (up2 W) (up1 bq) b j h
      = ⟨(μ : EReal), ((Real.exp (-μ) * denAt q k W bq b j h : ℝ) : EReal),
          fun e => ((Real.exp (-μ) * numAt q k v W bq b j h e : ℝ) : EReal)⟩
  | 0, h => by
      rw [carryAt]
      exact tileStep_init q k v W bq b ⟨0, h⟩
  | j + 1, h => by
      obtain ⟨μ, hμ⟩ := carryAt_real b j (Nat.lt_of_succ_lt h)
      rw [carryAt, hμ]
      exact tileStep_real q k v W bq b ⟨j + 1, h⟩ μ _ _

/-! ## The four tiles' rows are all the rows -/

/-- A sum over the 4096 rows, tile by tile. -/
theorem sum_rows (f : Fin 4096 → ℝ) : ∑ kk : Fin 4096, f kk = ∑ j : Fin 4, ∑ r : Fin 1024, f (rowOf j r) := by
  rw [← Fintype.sum_prod_type' (fun (j : Fin 4) (r : Fin 1024) => f (rowOf j r))]
  rw [← Equiv.sum_comp (finProdFinEquiv : Fin 4 × Fin 1024 ≃ Fin 4096) f]
  refine Finset.sum_congr rfl (fun p _ => ?_)
  congr 1
  apply Fin.ext
  simp only [finProdFinEquiv_apply_val, rowOf]
  omega

theorem denAt_last (b : Fin 16) :
    denAt q k W bq b 3 (by decide) = ∑ kk : Fin 4096, Real.exp (scoreR q k W bq b kk) := by
  rw [sum_rows, Fin.sum_univ_four]
  rfl

theorem numAt_last (b : Fin 16) (e : Fin 1024) :
    numAt q k v W bq b 3 (by decide) e = ∑ kk : Fin 4096, Real.exp (scoreR q k W bq b kk) * v b kk e := by
  rw [sum_rows (fun kk => Real.exp (scoreR q k W bq b kk) * v b kk e), Fin.sum_univ_four]
  rfl

/-! ## The result -/

theorem streamed_closed (b : Fin 16) (e' : Fin 1024) :
    streamed (up2 q) (up3 k) (up3 v) (up2 W) (up1 bq) (up2 Wv) (up1 bv) b e'
      = ((closed q k v W bq Wv bv b e' : ℝ) : EReal) := by
  obtain ⟨μ, hμ⟩ := carryAt_real q k v W bq b 3 (by decide)
  have hZ : 0 < denAt q k W bq b 3 (by decide) := by
    rw [denAt_last]
    exact Finset.sum_pos (fun _ _ => Real.exp_pos _) Finset.univ_nonempty
  unfold streamed closed
  rw [hμ]
  simp only [final_div _ _ _ hZ]
  simp only [numAt_last, denAt_last]
  unfold up2 up1
  rw [dot_coe, ← EReal.coe_add]

end real

end Cert.AttnSpec

end
-- ==== Proof.TwoPassClosed.lean ====
/-
  The two-pass (reference) form of single-query attention equals the closed real form when every input is real.

  With real data the projections are real, the square root of the word of 256 is 16, and a projected key row's
  score is σ = (Σ_a qproj_a · kproj_a)/16. Expanding kproj and swapping the two finite sums,
  σ(kk) = scoreR(kk) + C with C = (Σ_a qproj_a · bq_a)/16 independent of the key row kk. The two-pass softmax
  of real scores against a real value column is the quotient (Σ exp σ · v)/(Σ exp σ); the common factor exp C
  cancels; and the value projection, being affine, passes through the weighted mean because the weights sum to one.
-/
import proofs.«410998_j13451837571855_3_alg».proof.Proof.Spec
import proofs.«410998_j13451837571855_3_alg».proof.Proof.LibStreamSoftmax

noncomputable section

namespace Cert.AttnSpec

open Idealize.ShloMosaic Cert.Attn

namespace TwoPass

/-! ### The constant -/

/-- The f32 word 0x43800000 denotes 256. -/
theorem word_256 : Ideal.ofBits .f32 0x43800000#32 = ((256 : ℝ) : EReal) := by
  simp [Ideal.ofBits, Ideal.ieee, -EReal.coe_mul]; norm_num

/-- Its square root is 16. -/
theorem root_eq : root = ((16 : ℝ) : EReal) := by
  rw [root, word_256, Ideal.sqrt_coe, if_neg (by norm_num)]
  congr 1
  rw [show (256 : ℝ) = 16 ^ 2 by norm_num, Real.sqrt_sq (by norm_num)]

/-! ### Two laws of finite real sums -/

/-- A common shift of the scores cancels between the numerator and the denominator. -/
theorem shift_cancel {ι : Type} [Fintype ι] (s y : ι → ℝ) (C : ℝ) :
    (∑ i, Real.exp (s i + C) * y i) / (∑ i, Real.exp (s i + C))
      = (∑ i, Real.exp (s i) * y i) / (∑ i, Real.exp (s i)) := by
  have hC : Real.exp C ≠ 0 := (Real.exp_pos C).ne'
  have h1 : ∑ i, Real.exp (s i + C) * y i = Real.exp C * ∑ i, Real.exp (s i) * y i := by
    rw [Finset.mul_sum]
    exact Finset.sum_congr rfl (fun i _ => by rw [Real.exp_add]; ring)
  have h2 : ∑ i, Real.exp (s i + C) = Real.exp C * ∑ i, Real.exp (s i) := by
    rw [Finset.mul_sum]
    exact Finset.sum_congr rfl (fun i _ => by rw [Real.exp_add]; ring)
  rw [h1, h2, mul_div_mul_left _ _ hC]

/-- An affine map passes through a weighted mean: the weights over their sum add up to one. -/
theorem mean_affine {ι κ : Type} [Fintype ι] [Fintype κ] (w : ι → ℝ) (x : ι → κ → ℝ) (c : κ → ℝ) (β : ℝ)
    (hZ : (∑ i, w i) ≠ 0) :
    (∑ i, w i * ((∑ d, x i d * c d) + β)) / (∑ i, w i)
      = (∑ d, ((∑ i, w i * x i d) / (∑ i, w i)) * c d) + β := by
  have h1 : ∑ i, w i * ((∑ d, x i d * c d) + β) = (∑ d, (∑ i, w i * x i d) * c d) + (∑ i, w i) * β := by
    simp only [mul_add, Finset.sum_add_distrib, Finset.sum_mul, Finset.mul_sum]
    congr 1
    rw [Finset.sum_comm]
    exact Finset.sum_congr rfl (fun d _ => Finset.sum_congr rfl (fun i _ => by ring))
  rw [h1, add_div, mul_div_cancel_left₀ _ hZ, Finset.sum_div]
  congr 1
  exact Finset.sum_congr rfl (fun d _ => by rw [div_mul_eq_mul_div])

/-! ### The projections and the scores with real data -/

section real

variable (q : Fin 16 → Fin 1024 → ℝ) (k v : Fin 16 → Fin 4096 → Fin 1024 → ℝ)
  (W : Fin 1024 → Fin 256 → ℝ) (bq : Fin 256 → ℝ) (Wv : Fin 1024 → Fin 1024 → ℝ) (bv : Fin 1024 → ℝ)

/-- The projected key over the reals. -/
def kprojR (b : Fin 16) (kk : Fin 4096) (a : Fin 256) : ℝ := (∑ d : Fin 1024, k b kk d * W d a) + bq a
/-- The projected value over the reals. -/
def vprojR (b : Fin 16) (kk : Fin 4096) (e : Fin 1024) : ℝ := (∑ d : Fin 1024, v b kk d * Wv d e) + bv e
/-- A projected key row's score over the reals. -/
def scorePR (b : Fin 16) (kk : Fin 4096) : ℝ := (∑ a : Fin 256, qprojR q W bq b a * kprojR k W bq b kk a) * (1 / 16)

theorem qproj_up (b : Fin 16) (a : Fin 256) :
    qproj (up2 q) (up2 W) (up1 bq) b a = ((qprojR q W bq b a : ℝ) : EReal) := by
  simp only [qproj, qprojR, up2, up1]
  rw [dot_coe, ← EReal.coe_add]

theorem kproj_up (b : Fin 16) (kk : Fin 4096) (a : Fin 256) :
    kproj (up3 k) (up2 W) (up1 bq) b kk a = ((kprojR k W bq b kk a : ℝ) : EReal) := by
  simp only [kproj, kprojR, up3, up2, up1]
  rw [dot_coe, ← EReal.coe_add]

theorem vproj_up (b : Fin 16) (kk : Fin 4096) (e : Fin 1024) :
    vproj (up3 v) (up2 Wv) (up1 bv) b kk e = ((vprojR v Wv bv b kk e : ℝ) : EReal) := by
  simp only [vproj, vprojR, up3, up2, up1]
  rw [dot_coe, ← EReal.coe_add]

theorem scoreP_up (b : Fin 16) (kk : Fin 4096) :
    scoreP (up2 q) (up3 k) (up2 W) (up1 bq) b kk = ((scorePR q k W bq b kk : ℝ) : EReal) := by
  unfold scoreP scorePR
  rw [root_eq, Ideal.div_coe (by norm_num)]
  simp only [qproj_up, kproj_up]
  rw [dot_coe, ← EReal.coe_mul]

/-- The projected score is the raw-key score plus a term that does not depend on the key row. -/
theorem score_shift (b : Fin 16) (kk : Fin 4096) :
    scorePR q k W bq b kk = scoreR q k W bq b kk + (∑ a : Fin 256, qprojR q W bq b a * bq a) * (1 / 16) := by
  unfold scorePR scoreR qfoldR kprojR
  simp only [mul_add, Finset.sum_add_distrib, add_mul]
  congr 1
  simp only [Finset.mul_sum, Finset.sum_mul]
  rw [Finset.sum_comm]
  exact Finset.sum_congr rfl (fun d _ => Finset.sum_congr rfl (fun a _ => by ring))

/-- The row maximum is real. -/
theorem topP_up (b : Fin 16) : ∃ M : ℝ, topP (up2 q) (up3 k) (up2 W) (up1 bq) b = (M : EReal) := by
  unfold topP
  simp only [scoreP_up]
  exact max_real_first _

end real

end TwoPass

open TwoPass

theorem twoPass_closed (q : Fin 16 → Fin 1024 → ℝ) (k v : Fin 16 → Fin 4096 → Fin 1024 → ℝ) (W : Fin 1024 → Fin 256 → ℝ) (bq : Fin 256 → ℝ) (Wv : Fin 1024 → Fin 1024 → ℝ) (bv : Fin 1024 → ℝ) (b : Fin 16) (e : Fin 1024) :
    twoPass (up2 q) (up3 k) (up3 v) (up2 W) (up1 bq) (up2 Wv) (up1 bv) b e = ((closed q k v W bq Wv bv b e : ℝ) : EReal) := by
  obtain ⟨M, hM⟩ := topP_up q k W bq b
  have hpos : 0 < ∑ j : Fin 4096, Real.exp (scorePR q k W bq b j) :=
    Finset.sum_pos (fun _ _ => Real.exp_pos _) Finset.univ_nonempty
  have hZ : (∑ kk : Fin 4096, Real.exp (scoreR q k W bq b kk)) ≠ 0 :=
    (Finset.sum_pos (fun _ _ => Real.exp_pos _) Finset.univ_nonempty).ne'
  unfold twoPass
  simp only [scoreP_up, vproj_up, hM]
  rw [ref_row M _ _ hpos]
  congr 1
  simp only [score_shift]
  rw [shift_cancel]
  unfold vprojR closed
  exact mean_affine _ _ _ _ hZ

end Cert.AttnSpec

end
-- ==== Proof.lean ====
/-
  Single-query attention: a Pallas kernel that streams the keys and values in four tiles per batch with a running
  maximum, against a jnp reference that projects keys and values first and takes the softmax in two passes.

  The kernel never projects a key: it folds the projected query back through the transposed projection once per
  batch, q̃ = (q·W + b)·Wᵀ / 16, and scores a RAW key row against q̃. The reference's score of the same row is
  (q·W + b)·(k·W + b) / √256 = q̃·k + (q·W + b)·b / 16: the two differ by a term that does not depend on the key
  row, and a softmax does not see a shift common to all its scores. Likewise the kernel takes the weighted mean of
  the RAW value rows and projects it once, where the reference projects every value row first: the value projection
  is affine and the weights sum to one. The running maximum only rescales numerator and denominator by a common
  positive factor, which the final quotient cancels; at a batch's first tile the old maximum is −∞, whose rescaling
  factor exp(−∞ − μ) is 0 and multiplies the zero initial sums. The kernel's scale is the f32 word of 0.0625 = 1/16
  exactly and √256 = 16. Every one of these laws (distributing a product over a sum, cancelling a common factor,
  dividing by a positive sum) fails at infinities, so the precondition — every input entry finite — is used:
  under it every input is a real number and both results equal one real closed form.

  The modules: Spec (the two computations and the closed form over plain index types), StreamClosed and
  TwoPassClosed (each equals the closed form on real data), Finite (the precondition makes the inputs real),
  RefValue (the reference program's result is the two-pass form of its argument arrays), PayIdx, Blocks, Pieces,
  Step, Carried, KernelValue (the kernel program's result is the streamed form of its argument arrays).
-/
import proofs.«410998_j13451837571855_3_alg».proof.Defs
import proofs.«410998_j13451837571855_3_alg».proof.Proof.Gen.Kernel
import proofs.«410998_j13451837571855_3_alg».proof.Proof.Gen.Kernel.Skeleton
import proofs.«410998_j13451837571855_3_alg».proof.Proof.Gen.Kernel.Launch
import proofs.«410998_j13451837571855_3_alg».proof.Proof.Gen.Kernel.Points
import proofs.«410998_j13451837571855_3_alg».proof.Proof.Gen.Kernel.Frame
import proofs.«410998_j13451837571855_3_alg».proof.Proof.Gen.KernelIdeal
import proofs.«410998_j13451837571855_3_alg».proof.Proof.Gen.KernelIdeal.Skeleton
import proofs.«410998_j13451837571855_3_alg».proof.Proof.Gen.KernelIdeal.Launch
import proofs.«410998_j13451837571855_3_alg».proof.Proof.Gen.KernelIdeal.Points
import proofs.«410998_j13451837571855_3_alg».proof.Proof.Gen.KernelIdeal.Frame
import proofs.«410998_j13451837571855_3_alg».proof.Proof.Gen.ReferenceIdeal
import proofs.«410998_j13451837571855_3_alg».proof.Proof.Gen.ReferenceIdeal.Run
import proofs.«410998_j13451837571855_3_alg».proof.Proof.Gen.Pre_finite_inputs
import proofs.«410998_j13451837571855_3_alg».proof.Proof.KernelValue
import proofs.«410998_j13451837571855_3_alg».proof.Proof.RefValue
import proofs.«410998_j13451837571855_3_alg».proof.Proof.Finite
import proofs.«410998_j13451837571855_3_alg».proof.Proof.StreamClosed
import proofs.«410998_j13451837571855_3_alg».proof.Proof.TwoPassClosed
import Idealize.ShloMosaic.Adequacy
import Idealize.ShloMosaic.Init

noncomputable section

namespace Cert.Proof

open Idealize.ShloMosaic Idealize.ShloMosaic.TcCoe Idealize.SL.Sem Cert.AttnSpec

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On finite inputs the streamed result and the two-pass result are one real number, entry by entry. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq m' c, (hagree c).1, (hagree c).2.1, (hagree c).2.2.1, (hagree c).2.2.2.1,
    (hagree c).2.2.2.2.1, (hagree c).2.2.2.2.2.1, (hagree c).2.2.2.2.2.2]
  obtain ⟨q, k, v, W, bq, Wv, bv, h0, h1, h2, h3, h4, h5, h6⟩ :=
    Cert.Pre_finite_inputs.Finite.real_of_pre _ _ _ _ _ _ _ (hpre c)
  funext i
  show twoPass (un3 (m ((c.tc : Thread Cert.KernelIdeal.nD Cert.KernelIdeal.τ).loc Cert.KernelIdeal.main_arg0)))
      (arr3 (m ((c.tc : Thread Cert.KernelIdeal.nD Cert.KernelIdeal.τ).loc Cert.KernelIdeal.main_arg1)))
      (arr3 (m ((c.tc : Thread Cert.KernelIdeal.nD Cert.KernelIdeal.τ).loc Cert.KernelIdeal.main_arg2)))
      (arr2 (m ((c.tc : Thread Cert.KernelIdeal.nD Cert.KernelIdeal.τ).loc Cert.KernelIdeal.main_arg3)))
      (arr1 (m ((c.tc : Thread Cert.KernelIdeal.nD Cert.KernelIdeal.τ).loc Cert.KernelIdeal.main_arg4)))
      (arr2 (m ((c.tc : Thread Cert.KernelIdeal.nD Cert.KernelIdeal.τ).loc Cert.KernelIdeal.main_arg5)))
      (arr1 (m ((c.tc : Thread Cert.KernelIdeal.nD Cert.KernelIdeal.τ).loc Cert.KernelIdeal.main_arg6))) (i 0) (i 1)
    = streamed (un3 (m ((c.tc : Thread Cert.KernelIdeal.nD Cert.KernelIdeal.τ).loc Cert.KernelIdeal.main_arg0)))
      (arr3 (m ((c.tc : Thread Cert.KernelIdeal.nD Cert.KernelIdeal.τ).loc Cert.KernelIdeal.main_arg1)))
      (arr3 (m ((c.tc : Thread Cert.KernelIdeal.nD Cert.KernelIdeal.τ).loc Cert.KernelIdeal.main_arg2)))
      (arr2 (m ((c.tc : Thread Cert.KernelIdeal.nD Cert.KernelIdeal.τ).loc Cert.KernelIdeal.main_arg3)))
      (arr1 (m ((c.tc : Thread Cert.KernelIdeal.nD Cert.KernelIdeal.τ).loc Cert.KernelIdeal.main_arg4)))
      (arr2 (m ((c.tc : Thread Cert.KernelIdeal.nD Cert.KernelIdeal.τ).loc Cert.KernelIdeal.main_arg5)))
      (arr1 (m ((c.tc : Thread Cert.KernelIdeal.nD Cert.KernelIdeal.τ).loc Cert.KernelIdeal.main_arg6))) (i 0) (i 1)
  rw [h0, h1, h2, h3, h4, h5, h6]
  exact (twoPass_closed q k v W bq Wv bv _ _).trans (streamed_closed q k v W bq Wv bv _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
